-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S4096x256 .f32) (main_arg1 : FVec F S4096x4096 .f32) (main_arg2 : FVec F S256x256 .f32) (main_arg3 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S512x256 : Shape := ⟨2, ![512, 256]⟩
abbrev S256x4096 : Shape := ⟨2, ![256, 4096]⟩

abbrev nBuf : Space → Nat
  | .hbm => 19
  | .vmem => 11
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S4096x256, .bf16⟩
  | .hbm, ⟨18, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S512x256, .bf16⟩
  | .local _ .vmem, ⟨4, _⟩ => ⟨S512x256, .bf16⟩
  | .local _ .vmem, ⟨5, _⟩ => ⟨S256x4096, .f32⟩
  | .local _ .vmem, ⟨6, _⟩ => ⟨S256x4096, .f32⟩
  | .local _ .vmem, ⟨7, _⟩ => ⟨S4096x256, .bf16⟩
  | .local _ .vmem, ⟨8, _⟩ => ⟨S1x256, .f32⟩
  | .local _ .vmem, ⟨9, _⟩ => ⟨S256x256, .f32⟩
  | .local _ .vmem, ⟨10, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  pads_S256_S256_000 : S256.Pads (![0] : Fin 1 → Nat) ![0] ![0] S256
  shapeCasts_S256_S1x256 : S256.ShapeCasts S1x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S512x256_S512x256_0_0 : (Rect.unit (s := S512x256) ![0, 0] S512x256.size inb_S512x256_S512x256_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S512x256_S256x256_S512x256_1_0_0_1_n_n_wf : DotDims.WF S512x256 S256x256 S512x256 [1] [0] [0] [1] [] []
  dot_S256x4096_S4096x256_S256x256_1_0_0_1_n_n_wf : DotDims.WF S256x4096 S4096x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S4096x256.size a
  hwx0_0 : ∀ i : grid0.Coords, EltTy.bits .f32 = 32 ∨ (Rect.block (s := S4096x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x256.size a
  hwx0_2 : ∀ i : grid0.Coords, EltTy.bits .bf16 = 32 ∨ (Rect.block (s := S4096x256) S512x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .bf16 = 32 ∨ (Rect.block (s := S4096x256) S4096x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf

abbrev win0_0 : Pipeline.Window sig grid0 :=
  Pipeline.Window.ofSpec (Memref.whole main_v0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x256 : Shape := ⟨2, ![4096, 256]⟩
abbrev S4096x4096 : Shape := ⟨2, ![4096, 4096]⟩
abbrev S256x256 : Shape := ⟨2, ![256, 256]⟩
abbrev S256 : Shape := ⟨1, ![256]⟩
abbrev S_ : Shape := ⟨0, ![]⟩
abbrev S1x256 : Shape := ⟨2, ![1, 256]⟩
abbrev S256x512 : Shape := ⟨2, ![256, 512]⟩
abbrev S512x256 : Shape := ⟨2, ![512, 256]⟩

abbrev nBuf : Space → Nat
  | .hbm => 19
  | .vmem => 13
  | .smem => 0
  | _ => 0

abbrev bufTy : (tb : Table) → Fin (tcTables nBuf tb) → BufTy
  | .hbm, ⟨0, _⟩ => ⟨S4096x256, .f32⟩
  | .hbm, ⟨1, _⟩ => ⟨S4096x4096, .f32⟩
  | .hbm, ⟨2, _⟩ => ⟨S256x256, .f32⟩
  | .hbm, ⟨3, _⟩ => ⟨S256, .f32⟩
  | .hbm, ⟨4, _⟩ => ⟨S_, .i32⟩
  | .hbm, ⟨5, _⟩ => ⟨S_, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x4096, .f32⟩
  | .hbm, ⟨10, _⟩ => ⟨S_, .i32⟩
  | .hbm, ⟨11, _⟩ => ⟨S_, .f32⟩
  | .hbm, ⟨12, _⟩ => ⟨S256x256, .f32⟩
  | .hbm, ⟨13, _⟩ => ⟨S_, .i32⟩
  | .hbm, ⟨14, _⟩ => ⟨S_, .f32⟩
  | .hbm, ⟨15, _⟩ => ⟨S256, .f32⟩
  | .hbm, ⟨16, _⟩ => ⟨S1x256, .f32⟩
  | .hbm, ⟨17, _⟩ => ⟨S4096x256, .f32⟩
  | .hbm, ⟨18, _⟩ => ⟨S4096x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x512, .f32⟩
  | .local _ .vmem, ⟨6, _⟩ => ⟨S256x512, .f32⟩
  | .local _ .vmem, ⟨7, _⟩ => ⟨S512x256, .f32⟩
  | .local _ .vmem, ⟨8, _⟩ => ⟨S512x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_c_1 : Ref sig .tc := ⟨.hbm, 10, rfl⟩
abbrev main_call2_v0 : Ref sig .tc := ⟨.hbm, 11, rfl⟩
abbrev main_v2 : Ref sig .tc := ⟨.hbm, 12, rfl⟩
abbrev main_c_2 : Ref sig .tc := ⟨.hbm, 13, rfl⟩
abbrev main_call3_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  pads_S4096x256_S4096x256_000_000 : S4096x256.Pads (![0, 0] : Fin 2 → Nat) ![0, 0] ![0, 0] S4096x256
  h_S_ : 0 < S_.numel
  pads_S4096x4096_S4096x4096_000_000 : S4096x4096.Pads (![0, 0] : Fin 2 → Nat) ![0, 0] ![0, 0] S4096x4096
  pads_S256x256_S256x256_000_000 : S256x256.Pads (![0, 0] : Fin 2 → Nat) ![0, 0] ![0, 0] S256x256
  pads_S256_S256_000 : S256.Pads (![0] : Fin 1 → Nat) ![0] ![0] S256
  shapeCasts_S256_S1x256 : S256.ShapeCasts S1x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S256x256 : S1x256.Broadcasts S256x256
  dot_S256x256_S256x256_S256x256_1_0_0_1_n_n_wf : DotDims.WF S256x256 S256x256 S256x256 [1] [0] [0] [1] [] []
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S4096x256.size a
  hwx0_2 : ∀ i : grid0.Coords, EltTy.bits .f32 = 32 ∨ (Rect.block (s := S4096x256) S256x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S4096x4096.size a
  hwx1_0 : ∀ i : grid1.Coords, EltTy.bits .f32 = 32 ∨ (Rect.block (s := S4096x4096) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S4096x256.size a
  hwx1_3 : ∀ i : grid1.Coords, EltTy.bits .f32 = 32 ∨ (Rect.block (s := S4096x256) S256x256.size (cc1_transform_3 i) (hinb1_3 i)).WholeWords (EltTy.packing .f32)

variable [Facts₀]

def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== Proof.Spec.lean ====
/-
  The layer's result as one function of its four argument arrays.

  With x of 4096 rows and 256 columns, the adjacency A of 4096 by 4096, the weights W of 256 by 256 and the bias b of
  256 entries, the layer computes A (x W) + b: at row i and column j,

      (∑ q, A (i, q) · (∑ p, x (q, p) · W (p, j))) + b j

  over the extended reals. Both programs are compared with this one function. Nothing here depends on a program: the
  arrays are functions on the index sets of the literal shapes.
-/
import Idealize.ShloMosaic.PureOps.Ideal.Laws
import Idealize.ShloMosaic.Lib.ValueIdx

noncomputable section

open scoped BigOperators

namespace Cert.Spec

open Idealize.ShloMosaic Idealize.ShloMosaic.ValueIdx

/-- The shapes of the arguments: the features x, the adjacency A, the weights W, the bias b. -/
abbrev SX : Shape := ⟨2, ![4096, 256]⟩
abbrev SA : Shape := ⟨2, ![4096, 4096]⟩
abbrev SW : Shape := ⟨2, ![256, 256]⟩
abbrev SB : Shape := ⟨1, ![256]⟩

/-- The projected features x W at row q and column j: the sum over p of x (q, p) · W (p, j). -/
def xw (x : SX.Idx → EReal) (w : SW.Idx → EReal) (q : Fin 4096) (j : Fin 256) : EReal :=
  ∑ p : Fin 256, x (ix2 q p) * w (ix2 p j)

/-- The layer's result at row i and column j: the adjacency row i against column j of x W, plus the bias at j. -/
def out (x : SX.Idx → EReal) (a : SA.Idx → EReal) (w : SW.Idx → EReal) (b : SB.Idx → EReal)
    (i : Fin 4096) (j : Fin 256) : EReal :=
  (∑ q : Fin 4096, a (ix2 i q) * xw x w q j) + b (ix1 j)

/-- The projected features as an array of 4096 by 256. -/
def XW (x : SX.Idx → EReal) (w : SW.Idx → EReal) : SX.Idx → EReal :=
  fun e => xw x w (e 0) (e 1)

/-- The layer's result as an array of 4096 by 256. -/
def G (x : SX.Idx → EReal) (a : SA.Idx → EReal) (w : SW.Idx → EReal) (b : SB.Idx → EReal) : SX.Idx → EReal :=
  fun e => out x a w b (e 0) (e 1)

theorem XW_apply (x : SX.Idx → EReal) (w : SW.Idx → EReal) (q : Fin 4096) (j : Fin 256) :
    XW x w (ix2 q j) = xw x w q j := rfl

theorem G_apply (x : SX.Idx → EReal) (a : SA.Idx → EReal) (w : SW.Idx → EReal) (b : SB.Idx → EReal)
    (i : Fin 4096) (j : Fin 256) : G x a w b (ix2 i j) = out x a w b i j := rfl

end Cert.Spec
-- ==== Proof.KHost.lean ====
/-
  The buffers on entry to the first stage, in terms of the launch memory.

  Before the first stage the program pads each of its four arguments by a width of zero on every side and views the
  padded bias, 256 entries, as one row of 256. A pad of zero width reads its operand at every index, so the three
  padded matrices hold the features, the adjacency and the weights as launched, and entry (0, j) of the bias row is
  entry j of the bias as launched.
-/
import proofs.«177554_g2000404061440129_pallasbulk_871_2_alg».proof.Proof.Gen.KernelIdeal.Frame
import Idealize.ShloMosaic.Lib.KernelVsHost
import Idealize.ShloMosaic.Lib.Pipeline.Value
import Idealize.ShloMosaic.Lib.ValueIdx

set_option maxRecDepth 16384

noncomputable section

namespace Cert.KernelIdeal.KHost

open Idealize.ShloMosaic Idealize.ShloMosaic.ValueIdx Idealize.ShloMosaic.TcCoe
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- A pad with no low padding and no interior padding, to the operand's own shape, is the operand. -/
theorem pad_zero_width {α : Type} {s u : Shape} (lo hi interior : Fin s.rank → Nat) (x : s.Idx → α) (v : u.Idx → α)
    (h : s.Pads lo hi interior s) (hu : 0 < u.numel) (hlo : ∀ a, lo a = 0) (hint : ∀ a, interior a = 0) :
    pad s lo hi interior x v h hu = x :=
  funext fun j => pad_apply_of_inside lo hi interior x v h hu j j fun a => by
    rw [hlo a, hint a]; simp

/-- The two offsets of a pad of a matrix, and the one offset of a pad of a vector, are zero on every axis. -/
theorem zeros2 : ∀ a : Fin 2, (![0, 0] : Fin 2 → Nat) a = 0 := fun a => by fin_cases a <;> rfl
theorem zeros1 : ∀ a : Fin 1, (![0] : Fin 1 → Nat) a = 0 := fun a => by fin_cases a; rfl

/-- On entry to the first stage the padded features hold the features as launched. -/
theorem entry_features (c : Dev nD) :
    (W9 m ρ c (Proc.devRef .tc main_v0) : S4096x256.Idx → Elt F .f32) = m ((c : Thread nD τ).loc main_arg0) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S4096x256) S4096x256 ![0, 0] ![0, 0] ![0, 0] (m ((c : Thread nD τ).loc main_arg0))
    (sitofp (F := F) .f32 (constantI S_ 32 0#32)) pads_S4096x256_S4096x256_000_000 h_S_) rfl
    (pad_zero_width _ _ _ _ _ _ _ zeros2 zeros2)

/-- On entry to the first stage the padded adjacency holds the adjacency as launched. -/
theorem entry_adjacency (c : Dev nD) :
    (W9 m ρ c (Proc.devRef .tc main_v1) : S4096x4096.Idx → Elt F .f32) = m ((c : Thread nD τ).loc main_arg1) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S4096x4096) S4096x4096 ![0, 0] ![0, 0] ![0, 0] (m ((c : Thread nD τ).loc main_arg1))
    (sitofp (F := F) .f32 (constantI S_ 32 0#32)) pads_S4096x4096_S4096x4096_000_000 h_S_) rfl
    (pad_zero_width _ _ _ _ _ _ _ zeros2 zeros2)

/-- On entry to the first stage the padded weights hold the weights as launched. -/
theorem entry_weights (c : Dev nD) :
    (W9 m ρ c (Proc.devRef .tc main_v2) : S256x256.Idx → Elt F .f32) = m ((c : Thread nD τ).loc main_arg2) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S256x256) S256x256 ![0, 0] ![0, 0] ![0, 0] (m ((c : Thread nD τ).loc main_arg2))
    (sitofp (F := F) .f32 (constantI S_ 32 0#32)) pads_S256x256_S256x256_000_000 h_S_) rfl
    (pad_zero_width _ _ _ _ _ _ _ zeros2 zeros2)

/-- On entry to the first stage entry (0, j) of the bias row is entry j of the bias as launched. -/
theorem entry_bias_row (c : Dev nD) (j : Fin 256) :
    (W9 m ρ c (Proc.devRef .tc main_v4) : S1x256.Idx → Elt F .f32) (ix2 0 j)
      = (m ((c : Thread nD τ).loc main_arg3) : S256.Idx → Elt F .f32) (ix1 j) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine Eq.trans (b := shapeCast (s := S256) S1x256 (pad (s := S256) S256 ![0] ![0] ![0] (m ((c : Thread nD τ).loc main_arg3))
    (sitofp (F := F) .f32 (constantI S_ 32 0#32)) pads_S256_S256_000 h_S_) shapeCasts_S256_S1x256 (ix2 0 j)) rfl ?_
  rw [pad_zero_width _ _ _ _ _ _ _ zeros1 zeros1]
  refine shapeCast_apply _ _ (ix2 0 j) (ix1 j) ?_
  rw [Shape.rowMajor_val_one, Shape.rowMajor_val_two]
  show j.val = ((0 : Fin 1) : Nat) * 256 + j.val
  simp

end Cert.KernelIdeal.KHost

end
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KPay.lean ====
/-
  The two kernel bodies' results read at one entry, over the extended reals.

  Over the extended reals a change of float format is the identity, so the first body's block is the plain product of
  its 512 by 256 block of features with the 256 by 256 weights, and the second body's block is the plain product of its
  256 by 4096 stripe of the adjacency with the 4096 by 256 projected features, plus the bias row repeated down the
  rows. Each is stated at a literal entry (i, j) of the block.
-/
import proofs.«177554_g2000404061440129_pallasbulk_871_2_alg».proof.Proof.Gen.KernelIdeal.Skeleton
import proofs.«177554_g2000404061440129_pallasbulk_871_2_alg».proof.Proof.LibDotPlain
import Idealize.ShloMosaic.Lib.Pipeline.Value
import Idealize.ShloMosaic.Lib.ValueIdx

noncomputable section

open scoped BigOperators

namespace Cert.KernelIdeal.KPay

open Idealize.ShloMosaic Idealize.ShloMosaic.ValueIdx
open Cert.KernelIdeal Cert.KernelIdeal.Gen

/-- The first body's product has the dimension numbers of the plain 512 by 256 times 256 by 256 product. -/
theorem dims_xw : dot_S512x256_S256x256_S512x256_1_0_0_1_n_n = DotDims.plain 512 256 256 := rfl

/-- The second body's product has the dimension numbers of the plain 256 by 4096 times 4096 by 256 product. -/
theorem dims_prop : dot_S256x4096_S4096x256_S256x256_1_0_0_1_n_n = DotDims.plain 256 4096 256 := rfl

/-- The first body's block at (i, j): the sum over p of x (i, p) · w (p, j). -/
theorem xw_block_apply (x : FVec Ideal S512x256 .f32) (w : FVec Ideal S256x256 .f32) (i : Fin 512) (j : Fin 256) :
    k0_pay1 (F := Ideal) x w (ix2 i j) = ∑ p : Fin 256, x (ix2 i p) * w (ix2 p j) := by
  unfold k0_pay1
  simp only [shapeCast_self]
  rw [dims_xw]
  exact Cert.LibDotPlain.matmul_zero_plain 512 256 256 none x w i j

/-- The second body's block at (i, j): the sum over q of a (i, q) · s (q, j), plus the bias row at j. -/
theorem prop_block_apply (a : FVec Ideal S256x4096 .f32) (s : FVec Ideal S4096x256 .bf16) (b : FVec Ideal S1x256 .f32)
    (i : Fin 256) (j : Fin 256) :
    k1_pay1 (F := Ideal) a s b (ix2 i j) = (∑ q : Fin 4096, a (ix2 i q) * s (ix2 q j)) + b (ix2 0 j) := by
  unfold k1_pay1
  simp only [shapeCast_self]
  rw [dims_prop, addf_apply]
  congr 1
  · exact Cert.LibDotPlain.matmul_zero_plain 256 4096 256 none a s i j
  · refine broadcastTo_apply b _ (ix2 i j) (ix2 0 j) fun d => ?_
    match d with
    | ⟨0, _⟩ => rfl
    | ⟨1, _⟩ => rfl

end Cert.KernelIdeal.KPay

end
-- ==== Proof.KValue0.lean ====
/-
  The first stage's result array: the projected features x W.

  The first stage walks eight grid points; at point t it reads rows 512 t to 512 t + 511 of the features x (all 256
  columns) and the whole 256 by 256 weights W, and writes the 512 by 256 product of the two into rows 512 t to
  512 t + 511 of its result. Entry (p, q) of that block is the sum over r of x (512 t + p, r) · W (r, q), which is entry
  (512 t + p, q) of x W; so what each point writes back is its block of the one array x W. Row i of the result lies in
  the block of point i / 512, so the eight blocks cover the array and the result ends holding x W. All of this is
  stated for arbitrary contents of the buffers on entry to the stage.
-/
import proofs.«177554_g2000404061440129_pallasbulk_871_2_alg».proof.Proof.Gen.KernelIdeal.Frame
import proofs.«177554_g2000404061440129_pallasbulk_871_2_alg».proof.Proof.KPay
import proofs.«177554_g2000404061440129_pallasbulk_871_2_alg».proof.Proof.Spec
import Idealize.ShloMosaic.Lib.Pipeline.Value

set_option maxRecDepth 16384

noncomputable section

open scoped BigOperators

namespace Cert.KernelIdeal.KValue0

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The offsets of a whole-buffer access, however the zeros are spelt. -/
theorem zeros2 : (![0, 0] : Fin 2 → Nat) = fun _ => 0 := funext fun a => by fin_cases a <;> rfl

/-- The block indices over the grid: at point t the features' window and the result's window are at block row t,
    block column 0; the weights' window stays at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of x W, for the features x and the weights W as the stage finds them. -/
theorem flushed_eq (c : Dev nD) (t : Fin cfg0.N) :
    (dat0 V c).flushed 2 t = ((cfg0.win 2).blk t).view.read (Elt Ideal)
      (Cert.Spec.XW (V c main_v0) (V c main_v2)) := by
  show (cfg0.win 2).cut (grid0.coords t) ((dat0 V c).after 2 t) = _
  rw [after0_2]
  unfold out0_2
  rw [View.canon_unit_zero zeros2]
  simp only [View.ld_unit_zero (S := S512x256) zeros2, View.ld_unit_zero (S := S256x256) zeros2]
  obtain ⟨e00, e01, e10, e11, e20, e21⟩ := block_indices t
  have ht : t.val < 8 := lt_of_lt_of_eq t.isLt N_0
  funext j
  obtain ⟨p, q, rfl⟩ : ∃ (p : Fin 512) (q : Fin 256), j = ix2 p q := ⟨j 0, j 1, eq_ix2 j⟩
  have hp : p.val < 512 := p.isLt
  show k0_pay1 (iblk0 V c 0 t) (iblk0 V c 1 t) (ix2 p q)
    = Cert.Spec.XW (V c main_v0) (V c main_v2) (((cfg0.win 2).blk t).view.emb (ix2 p q))
  have hemb : ((cfg0.win 2).blk t).view.emb (ix2 p q) = ix2 (⟨512 * t.val + p.val, by omega⟩ : Fin 4096) q := by
    funext a; apply Fin.ext
    match a with
    | ⟨0, _⟩ => show win0_2.index t (0 : Fin 2) * 512 + 1 * p.val = 512 * t.val + p.val; omega
    | ⟨1, _⟩ => show win0_2.index t (1 : Fin 2) * 256 + 1 * q.val = q.val; omega
  rw [hemb, Cert.Spec.XW_apply]
  refine (KPay.xw_block_apply _ _ p q).trans ?_
  unfold Cert.Spec.xw
  refine Finset.sum_congr rfl fun r _ => ?_
  congr 1
  · show V c main_v0 (((cfg0.win 0).blk t).view.emb (ix2 p r)) = V c main_v0 (ix2 ⟨512 * t.val + p.val, _⟩ r)
    refine congrArg _ (funext fun a => Fin.ext ?_)
    match a with
    | ⟨0, _⟩ => show win0_0.index t (0 : Fin 2) * 512 + 1 * p.val = 512 * t.val + p.val; omega
    | ⟨1, _⟩ => show win0_0.index t (1 : Fin 2) * 256 + 1 * r.val = r.val; omega
  · show V c main_v2 (((cfg0.win 1).blk t).view.emb (ix2 r q)) = V c main_v2 (ix2 r q)
    refine congrArg _ (funext fun a => Fin.ext ?_)
    match a with
    | ⟨0, _⟩ => show win0_1.index t (0 : Fin 2) * 256 + 1 * r.val = r.val; omega
    | ⟨1, _⟩ => show win0_1.index t (1 : Fin 2) * 256 + 1 * q.val = q.val; omega

/-- An index of the result array is in point t's block iff each coordinate is in the block's range on its axis. -/
theorem mem_block (t : Fin cfg0.N) (i : S4096x256.Idx) :
    i ∈ ((cfg0.win 2).blk t).view.set ↔ ∀ a : Fin 2, win0_2.index t a * S512x256.size a ≤ (i a).val
      ∧ (i a).val < win0_2.index t a * S512x256.size a + S512x256.size a := by
  show i ∈ ((View.whole main_v5).slice (win0_2.rect t)).set ↔ _
  rw [View.set_slice_whole, Rect.mem_set_unit]
  exact Iff.rfl

/-- Every index of the result array is in the block of some point: row i is in the block of point i / 512. -/
theorem covered (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have ht8 : (i 0).val / 512 < cfg0.N := lt_of_lt_of_eq (by omega : (i 0).val / 512 < 8) N_0.symm
  obtain ⟨-, -, -, -, e20, e21⟩ := block_indices ⟨(i 0).val / 512, ht8⟩
  have e20' : win0_2.index ⟨(i 0).val / 512, ht8⟩ (0 : Fin 2) = (i 0).val / 512 := e20
  refine ⟨⟨(i 0).val / 512, ht8⟩, flush0_2 _, ?_⟩
  rw [mem_block]
  intro a
  match a with
  | ⟨0, _⟩ =>
    show win0_2.index ⟨(i 0).val / 512, ht8⟩ (0 : Fin 2) * 512 ≤ (i 0).val
      ∧ (i 0).val < win0_2.index ⟨(i 0).val / 512, ht8⟩ (0 : Fin 2) * 512 + 512
    omega
  | ⟨1, _⟩ =>
    show win0_2.index ⟨(i 0).val / 512, ht8⟩ (1 : Fin 2) * 256 ≤ (i 1).val
      ∧ (i 1).val < win0_2.index ⟨(i 0).val / 512, ht8⟩ (1 : Fin 2) * 256 + 256
    omega

/-- The first stage's result array after the stage: x W of the features and the weights as the stage finds them. -/
theorem final (c : Dev nD) :
    (dat0 V c).arrAt 2 cfg0.N = Cert.Spec.XW (V c main_v0) (V c main_v2) :=
  (dat0 V c).arrAt_eq_of_cover 2 _ (fun t _ => flushed_eq V c t) covered

end Cert.KernelIdeal.KValue0

end
-- ==== Proof.KValue1.lean ====
/-
  The second stage's result array: A S + b for the adjacency A, the first stage's result S and the bias row b.

  The second stage walks sixteen grid points; at point t it reads rows 256 t to 256 t + 255 of the adjacency A (all
  4096 columns), the whole 4096 by 256 array S and the one row b of 256 entries, and writes the 256 by 256 block
  (stripe of A) · S + (b repeated down the rows) into rows 256 t to 256 t + 255 of its result. Entry (p, q) of that
  block is the sum over r of A (256 t + p, r) · S (r, q), plus b (0, q): entry (256 t + p, q) of the one array A S + b.
  Row i of the result lies in the block of point i / 256, so the sixteen blocks cover the array and the result ends
  holding A S + b. All of this is stated for arbitrary contents of the buffers on entry to the stage.
-/
import proofs.«177554_g2000404061440129_pallasbulk_871_2_alg».proof.Proof.Gen.KernelIdeal.Frame
import proofs.«177554_g2000404061440129_pallasbulk_871_2_alg».proof.Proof.KPay
import Idealize.ShloMosaic.Lib.Pipeline.Value

set_option maxRecDepth 16384

noncomputable section

open scoped BigOperators

namespace Cert.KernelIdeal.KValue1

open Idealize.ShloMosaic Idealize.ShloMosaic.ValueIdx Idealize.ShloMosaic.TcCoe
open Idealize.SL Idealize.SL.Sem
open Idealize.ShloMosaic.Pipeline (Dat Cfg Window)
open Cert.KernelIdeal Cert.KernelIdeal.Gen

/-- Entry (i, j) of A S + b: row i of A against column j of S, plus the bias row at j. -/
def propAt (a : S4096x4096.Idx → EReal) (s : S4096x256.Idx → EReal) (b : S1x256.Idx → EReal)
    (i : Fin 4096) (j : Fin 256) : EReal :=
  (∑ r : Fin 4096, a (ix2 i r) * s (ix2 r j)) + b (ix2 0 j)

/-- A S + b as an array of 4096 by 256. -/
def prop (a : S4096x4096.Idx → EReal) (s : S4096x256.Idx → EReal) (b : S1x256.Idx → EReal) :
    S4096x256.Idx → EReal :=
  fun e => propAt a s b (e 0) (e 1)

theorem prop_apply (a : S4096x4096.Idx → EReal) (s : S4096x256.Idx → EReal) (b : S1x256.Idx → EReal)
    (i : Fin 4096) (j : Fin 256) :
    prop a s b (ix2 i j) = (∑ r : Fin 4096, a (ix2 i r) * s (ix2 r j)) + b (ix2 0 j) := rfl

variable (V : (c : Dev nD) → (b : Ref sig .tc) → Buf (Elt Ideal) ((c : Thread nD τ).loc b))

/-- The offsets of a whole-buffer access, however the zeros are spelt. -/
theorem zeros2 : (![0, 0] : Fin 2 → Nat) = fun _ => 0 := funext fun a => by fin_cases a <;> rfl

/-- The block indices over the grid: at point t the adjacency's window and the result's window are at block row t,
    block column 0; the windows of S and of the bias row stay at block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of A S + b, for A, S and b as the stage finds them. -/
theorem flushed_eq (c : Dev nD) (t : Fin cfg1.N) :
    (dat1 V c).flushed 3 t = ((cfg1.win 3).blk t).view.read (Elt Ideal)
      (prop (V c main_v1) (V c main_v5) (V c main_v4)) := by
  show (cfg1.win 3).cut (grid1.coords t) ((dat1 V c).after 3 t) = _
  rw [after1_3]
  unfold out1_3
  rw [View.canon_unit_zero zeros2]
  simp only [View.ld_unit_zero (S := S256x4096) zeros2, View.ld_unit_zero (S := S4096x256) zeros2,
    View.ld_unit_zero (S := S1x256) zeros2]
  obtain ⟨e00, e01, e10, e11, e20, e21, e30, e31⟩ := block_indices t
  have ht : t.val < 16 := lt_of_lt_of_eq t.isLt N_1
  funext j
  obtain ⟨p, q, rfl⟩ : ∃ (p : Fin 256) (q : Fin 256), j = ix2 p q := ⟨j 0, j 1, eq_ix2 j⟩
  have hp : p.val < 256 := p.isLt
  show k1_pay1 (iblk1 V c 0 t) (iblk1 V c 1 t) (iblk1 V c 2 t) (ix2 p q)
    = prop (V c main_v1) (V c main_v5) (V c main_v4) (((cfg1.win 3).blk t).view.emb (ix2 p q))
  have hemb : ((cfg1.win 3).blk t).view.emb (ix2 p q) = ix2 (⟨256 * t.val + p.val, by omega⟩ : Fin 4096) q := by
    funext a; apply Fin.ext
    match a with
    | ⟨0, _⟩ => show win1_3.index t (0 : Fin 2) * 256 + 1 * p.val = 256 * t.val + p.val; omega
    | ⟨1, _⟩ => show win1_3.index t (1 : Fin 2) * 256 + 1 * q.val = q.val; omega
  rw [hemb, prop_apply]
  refine (KPay.prop_block_apply _ _ _ p q).trans ?_
  congr 1
  · refine Finset.sum_congr rfl fun r _ => ?_
    congr 1
    · show V c main_v1 (((cfg1.win 0).blk t).view.emb (ix2 p r)) = V c main_v1 (ix2 ⟨256 * t.val + p.val, _⟩ r)
      refine congrArg _ (funext fun a => Fin.ext ?_)
      match a with
      | ⟨0, _⟩ => show win1_0.index t (0 : Fin 2) * 256 + 1 * p.val = 256 * t.val + p.val; omega
      | ⟨1, _⟩ => show win1_0.index t (1 : Fin 2) * 4096 + 1 * r.val = r.val; omega
    · show V c main_v5 (((cfg1.win 1).blk t).view.emb (ix2 r q)) = V c main_v5 (ix2 r q)
      refine congrArg _ (funext fun a => Fin.ext ?_)
      match a with
      | ⟨0, _⟩ => show win1_1.index t (0 : Fin 2) * 4096 + 1 * r.val = r.val; omega
      | ⟨1, _⟩ => show win1_1.index t (1 : Fin 2) * 256 + 1 * q.val = q.val; omega
  · show V c main_v4 (((cfg1.win 2).blk t).view.emb (ix2 0 q)) = V c main_v4 (ix2 0 q)
    refine congrArg _ (funext fun a => Fin.ext ?_)
    match a with
    | ⟨0, _⟩ => show win1_2.index t (0 : Fin 2) * 1 + 1 * ((0 : Fin 1) : Nat) = ((0 : Fin 1) : Nat); omega
    | ⟨1, _⟩ => show win1_2.index t (1 : Fin 2) * 256 + 1 * q.val = q.val; omega

/-- An index of the result array is in point t's block iff each coordinate is in the block's range on its axis. -/
theorem mem_block (t : Fin cfg1.N) (i : S4096x256.Idx) :
    i ∈ ((cfg1.win 3).blk t).view.set ↔ ∀ a : Fin 2, win1_3.index t a * S256x256.size a ≤ (i a).val
      ∧ (i a).val < win1_3.index t a * S256x256.size a + S256x256.size a := by
  show i ∈ ((View.whole main_v6).slice (win1_3.rect t)).set ↔ _
  rw [View.set_slice_whole, Rect.mem_set_unit]
  exact Iff.rfl

/-- Every index of the result array is in the block of some point: row i is in the block of point i / 256. -/
theorem covered (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have ht16 : (i 0).val / 256 < cfg1.N := lt_of_lt_of_eq (by omega : (i 0).val / 256 < 16) N_1.symm
  obtain ⟨-, -, -, -, -, -, e30, e31⟩ := block_indices ⟨(i 0).val / 256, ht16⟩
  have e30' : win1_3.index ⟨(i 0).val / 256, ht16⟩ (0 : Fin 2) = (i 0).val / 256 := e30
  refine ⟨⟨(i 0).val / 256, ht16⟩, flush1_3 _, ?_⟩
  rw [mem_block]
  intro a
  match a with
  | ⟨0, _⟩ =>
    show win1_3.index ⟨(i 0).val / 256, ht16⟩ (0 : Fin 2) * 256 ≤ (i 0).val
      ∧ (i 0).val < win1_3.index ⟨(i 0).val / 256, ht16⟩ (0 : Fin 2) * 256 + 256
    omega
  | ⟨1, _⟩ =>
    show win1_3.index ⟨(i 0).val / 256, ht16⟩ (1 : Fin 2) * 256 ≤ (i 1).val
      ∧ (i 1).val < win1_3.index ⟨(i 0).val / 256, ht16⟩ (1 : Fin 2) * 256 + 256
    omega

/-- The second stage's result array after the stage: A S + b of the three arrays as the stage finds them. -/
theorem final (c : Dev nD) :
    (dat1 V c).arrAt 3 cfg1.N = prop (V c main_v1) (V c main_v5) (V c main_v4) :=
  (dat1 V c).arrAt_eq_of_cover 3 _ (fun t _ => flushed_eq V c t) covered

end Cert.KernelIdeal.KValue1

end
-- ==== Proof.KValue.lean ====
/-
  The run of the two-stage program with its result named.

  Every weakly fair run of the program ends with each buffer at the contents the last stage leaves. The second stage
  leaves in the result A' S + b' for the adjacency A', the array S and the bias row b' it finds on entry; S is what the
  first stage leaves, x' W' for the features x' and the weights W' it finds on entry; the first stage writes neither A'
  nor b'; and the zero-width pads and the one-row view before the first stage make x', A', W' the arguments x, A, W as
  launched and b' (0, j) the bias b at j. So entry (i, j) of the result is the sum over q of A (i, q) · (x W) (q, j),
  plus b j: the array `G` of the four arguments. The arguments themselves end as launched.
-/
import proofs.«177554_g2000404061440129_pallasbulk_871_2_alg».proof.KernelIdeal
import proofs.«177554_g2000404061440129_pallasbulk_871_2_alg».proof.Proof.Gen.KernelIdeal
import proofs.«177554_g2000404061440129_pallasbulk_871_2_alg».proof.Proof.Spec
import proofs.«177554_g2000404061440129_pallasbulk_871_2_alg».proof.Proof.KRun
import proofs.«177554_g2000404061440129_pallasbulk_871_2_alg».proof.Proof.KHost
import proofs.«177554_g2000404061440129_pallasbulk_871_2_alg».proof.Proof.KValue0
import proofs.«177554_g2000404061440129_pallasbulk_871_2_alg».proof.Proof.KValue1

set_option maxRecDepth 16384

noncomputable section

open scoped BigOperators

namespace Cert.KernelIdeal.KValue

open Idealize.ShloMosaic Idealize.SL.Sem
open Idealize.ShloMosaic.ValueIdx Idealize.ShloMosaic.TcCoe
open Cert.KernelIdeal Cert.KernelIdeal.Gen

/-- The array the first stage leaves, on entry to the second stage: x W of the features and weights as launched. -/
theorem projected (m : (ℓ : Loc nD τ sig) → Buf (Elt Ideal) ℓ) (ρ : Dev nD → PrngReg) (c : Dev nD) :
    (V10 m ρ c main_v5 : S4096x256.Idx → EReal)
      = Cert.Spec.XW (m ((c : Thread nD τ).loc main_arg0)) (m ((c : Thread nD τ).loc main_arg2)) := by
  have h : (V10 m ρ c main_v5 : S4096x256.Idx → EReal) = (dat0 (V9 m ρ) c).arrAt 2 cfg0.N := W10_arr m ρ c 2
  rw [h, KValue0.final]
  have hx : (V9 m ρ c main_v0 : S4096x256.Idx → EReal) = m ((c : Thread nD τ).loc main_arg0) :=
    KHost.entry_features m ρ c
  have hw : (V9 m ρ c main_v2 : S256x256.Idx → EReal) = m ((c : Thread nD τ).loc main_arg2) :=
    KHost.entry_weights m ρ c
  rw [hx, hw]

/-- The program's result array at the last boundary: `G` of the four arguments as launched. -/
theorem result_eq (m : (ℓ : Loc nD τ sig) → Buf (Elt Ideal) ℓ) (ρ : Dev nD → PrngReg) (c : Dev nD) :
    (W11 m ρ c (Proc.devRef .tc main_v6) : S4096x256.Idx → EReal)
      = Cert.Spec.G (m ((c : Thread nD τ).loc main_arg0)) (m ((c : Thread nD τ).loc main_arg1))
          (m ((c : Thread nD τ).loc main_arg2)) (m ((c : Thread nD τ).loc main_arg3)) := by
  have h : (W11 m ρ c (Proc.devRef .tc main_v6) : S4096x256.Idx → EReal) = (dat1 (V10 m ρ) c).arrAt 3 cfg1.N :=
    W11_arr m ρ c 3
  rw [h, KValue1.final]
  have hA : (V10 m ρ c main_v1 : S4096x4096.Idx → EReal) = m ((c : Thread nD τ).loc main_arg1) :=
    (W10_of_ne m ρ c main_v1 (by decide)).trans (KHost.entry_adjacency m ρ c)
  have hb : ∀ j : Fin 256, (V10 m ρ c main_v4 : S1x256.Idx → EReal) (ix2 0 j)
      = (m ((c : Thread nD τ).loc main_arg3) : S256.Idx → EReal) (ix1 j) := fun j =>
    (congrFun (W10_of_ne m ρ c main_v4 (by decide)) (ix2 0 j)).trans (KHost.entry_bias_row m ρ c j)
  rw [hA, projected m ρ c]
  funext e
  obtain ⟨i, j, rfl⟩ : ∃ (i : Fin 4096) (j : Fin 256), e = ix2 i j := ⟨e 0, e 1, eq_ix2 e⟩
  rw [KValue1.prop_apply, Cert.Spec.G_apply, hb j]
  rfl

/-- Every weakly fair run of the program ends with its result at `G` of the arguments and the arguments unchanged. -/
theorem run_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
      r.2.mem ((c.tc : Thread Cert.KernelIdeal.nD Cert.KernelIdeal.τ).loc Cert.KernelIdeal.main_v6)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) :=
  (θ_run (Cert.KernelIdeal.defs (F := Ideal)) _ _).mono (fun r h c =>
    ⟨(h c _ (mem_uc main_v6 (by decide))).trans (result_eq m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩)
    (KRun.run_all m ρ)

end Cert.KernelIdeal.KValue

end
-- ==== Proof.RRegion0.lean ====
/-
  The first stage of the reference, at any contents of the buffers when it is entered. The grid has sixteen points; at
  point t the body reads the block of rows 256 t .. 256 t + 255 of the padded features and the whole of the padded
  weights, and stores their matrix product (accumulated into a zero matrix) over the whole of the result window's
  staging buffer. This module states what each window's staging buffer holds after the body at a point (each input its
  block, the result the product of the two blocks as one piece covering the buffer), proves the body's triple from the
  body's skeleton, and packs both as the proof data of the stage's pipeline and its body obligation.
-/
import proofs.«177554_g2000404061440129_pallasbulk_871_2_alg».proof.Proof.Gen.ReferenceIdeal.Launch
import proofs.«177554_g2000404061440129_pallasbulk_871_2_alg».proof.Proof.Gen.ReferenceIdeal.Skeleton
import proofs.«177554_g2000404061440129_pallasbulk_871_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 256 by 256: the structural check recurses once per coordinate
set_option maxRecDepth 16384

noncomputable section

namespace Cert.ReferenceIdeal.Reg0

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the stage is entered
variable (V : (c : Dev nD) → (b : Ref sig .tc) → Buf (Elt F) ((c : Thread nD τ).loc b))

/-! ## The windows' blocks -/

/-- Window `w`'s block at point `t`, read off its array as the stage finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current staging buffer holds its block at every point, whether the point fetched it or an
    earlier one did, for any proof data whose array is the entry contents and whose body leaves the block in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The same for the weight window, whose block index never moves. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- Every access of the body is the whole of a 256 by 256 buffer. -/
abbrev r0 : Rect S256x256 := Rect.unit (s := S256x256) ![0, 0] S256x256.size inb_S256x256_S256x256_0_0

/-! ## What the body leaves in the result window's buffer -/

/-- The result window's staging buffer after the body, from the two input blocks: one store, of the product. -/
def out2 (x0 : Vec F S256x256 .f32) (x1 : Vec F S256x256 .f32) : Vec F S256x256 .f32 :=
  View.canon [⟨r0, k0_pay1 (View.ld x0 r0) (View.ld x1 r0)⟩]

/-- The one store covers the buffer. -/
theorem cover2 (p0 : Vec F S256x256 .f32) (y : S256x256.Idx) :
    ∃ pc ∈ ([⟨r0, p0⟩] : List (View.Piece (Elt F) S256x256 .f32)), y ∈ pc.1.set :=
  View.cover_of_tiled [⟨r0, p0⟩] S256x256.size (by rfl) y

/-! ## The body's triple -/

set_option maxHeartbeats 1000000 in
/-- On whole staging memrefs, the inputs' at contents `x0`, `x1` and the result's at anything, the body runs to the
    continuation holding the inputs' as they were and the result's at `out2 x0 x1`. -/
theorem sound_kernel (c : Dev nD) (E : Set ℕ) (i : grid0.Coords) (arg1 : Memref sig .tc .vmem S256x256 .f32) (harg1 : arg1.IsWhole) (arg2 : Memref sig .tc .vmem S256x256 .f32) (harg2 : arg2.IsWhole) (arg3 : Memref sig .tc .vmem S256x256 .f32) (harg3 : arg3.IsWhole)
    (x0 : Vec F S256x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2 _)

/-! ## The pipeline's proof data -/

/-- The proof data of the stage's pipeline on core `c`: the arrays as the stage finds them; after the body at point
    `t` each input's buffer at its block and the result's at the product of the two blocks; the invariant the scoped
    rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out2 (iblk V c 0 t) (iblk V c 1 t)
  Φ _ := Pipeline.ΦA spec0 c
  q _ := fullShare
  owed _ := 0

/-- The proof data's arrays are the entry contents. -/
theorem A_eq (c : Dev nD) (w : Fin cfg0.W) : (dat V c).A w = V c (Pipeline.arrRef spec0 w) := by
  dsimp only [dat]

/-- What the body leaves, window by window. -/
theorem after0 (c : Dev nD) (t : Fin cfg0.N) : (dat V c).after 0 t = iblk V c 0 t := by dsimp only [dat]
theorem after1 (c : Dev nD) (t : Fin cfg0.N) : (dat V c).after 1 t = iblk V c 1 t := by dsimp only [dat]
theorem after2 (c : Dev nD) (t : Fin cfg0.N) : (dat V c).after 2 t = out2 (iblk V c 0 t) (iblk V c 1 t) := by dsimp only [dat]

/-- Each input's current staging buffer holds its block at every point. -/
theorem before0 (c : Dev nD) (t : Fin cfg0.N) (d) : (dat V c).before 0 t d = iblk V c 0 t :=
  before0_of V (dat V c) (A_eq V c 0) (after0 V c) t d
theorem before1 (c : Dev nD) (t : Fin cfg0.N) (d) : (dat V c).before 1 t d = iblk V c 1 t :=
  before1_of V (dat V c) (A_eq V c 1) (after1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so the body's triple applies; the invariant and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1]
  rw [show (dat V c).Φ t.succ = (dat V c).Φ t.castSucc from rfl,
    show (dat V c).owesAt () t.succ = (dat V c).owesAt () t.castSucc from rfl,
    after0, after1, after2]
  iintro ⟨HΦ, Ho, ⟨%d0, H0⟩, ⟨%d1, H1⟩, ⟨%d2, H2⟩⟩
  iapply (sound_kernel c Set.univ (grid0.coords t) _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation (c : Dev nD) : BodyObligation (dat (F := F) V c) (defs₀ (F := F)) Variants.none () Set.univ := fun t => by
  rw [bigSep_W0, bigSep_W0]
  exact sound_body V c t

end Cert.ReferenceIdeal.Reg0

end
-- ==== Proof.RRuns.lean ====
/-
  The second stage of the reference: for each block of 256 rows of the adjacency, eight grid points walk its column
  blocks of 512. At a point the kernel body adds the product of the adjacency block with the matching 512 rows of the
  projected features into a scratch array of 256 by 256, which it first resets to zero at the first of the eight
  points; at the last of the eight it adds the bias row and stores the result block. So a point is in one of three
  cases: first (reset, accumulate), middle (accumulate), last (accumulate, then store). This module holds what the three
  cases share: the two branch conditions in closed form over the grid, where the result window is stored and where it is
  left alone, the memrefs the body is called with, and the region invariant with the scratch spelled as a memref.
-/
import proofs.«177554_g2000404061440129_pallasbulk_871_2_alg».proof.Proof.Gen.ReferenceIdeal.Launch
import proofs.«177554_g2000404061440129_pallasbulk_871_2_alg».proof.Proof.Gen.ReferenceIdeal.Skeleton
import proofs.«177554_g2000404061440129_pallasbulk_871_2_alg».proof.Proof.Gen.ReferenceIdeal.Points
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions -/

/-- The reset's condition: the column-block coordinate is zero. -/
abbrev condFirst (i : grid1.Coords) : Prop :=
  (Scalar.cmpi .ne (Scalar.extui (Scalar.cmpi .eq (BitVec.ofNat 32 (i 1).val) 0#32)) 0#32) = 1#1
/-- It holds exactly at the first of each eight points. -/
theorem hcondFirst : ∀ t : Fin cfg1.N, condFirst (grid1.coords t) ↔ t.val % 8 = 0 :=
  (by decide +kernel : ∀ t : Fin grid1.N, condFirst (grid1.coords t) ↔ t.val % 8 = 0)

/-- The final store's condition: the column-block coordinate is seven. -/
abbrev condLast (i : grid1.Coords) : Prop := k1_cond2 i = 1#1
/-- It holds exactly at the last of each eight points. -/
theorem hcondLast : ∀ t : Fin cfg1.N, condLast (grid1.coords t) ↔ t.val % 8 = 7 :=
  (by decide +kernel : ∀ t : Fin grid1.N, condLast (grid1.coords t) ↔ t.val % 8 = 7)

/-! ## Where the windows are stored into -/

/-- The three input windows are never left alone. -/
theorem live_in0 : ∀ t : Fin cfg1.N, cfg1.idle 0 (grid1.coords t) = false := by decide +kernel
theorem live_in1 : ∀ t : Fin cfg1.N, cfg1.idle 1 (grid1.coords t) = false := by decide +kernel
theorem live_in2 : ∀ t : Fin cfg1.N, cfg1.idle 2 (grid1.coords t) = false := by decide +kernel
/-- Away from the last of eight points the body stores nothing into the result window, -/
theorem idle_out : ∀ t : Fin cfg1.N, ¬condLast (grid1.coords t) → cfg1.idle 3 (grid1.coords t) = true := by decide +kernel
/-- and the result block is not written back there. -/
theorem noFlush_out : ∀ t : Fin cfg1.N, ¬condLast (grid1.coords t) → (cfg1.win 3).flush t = false := by decide +kernel
/-- At the last of eight points the body stores the result block. -/
theorem live_out : ∀ t : Fin cfg1.N, condLast (grid1.coords t) → cfg1.idle 3 (grid1.coords t) = false := by decide +kernel

/-! ## The memrefs the body is called with -/

/-- One staging buffer of the result window, through which its contents are stated. -/
abbrev VO : View sig .tc .vmem S256x256 .f32 := (Memref.whole cc1_stg3_0 : Memref sig .tc .vmem S256x256 .f32).view
abbrev ms0 (t : Fin cfg1.N) : Memref sig .tc .vmem S256x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x256 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S256x256 .f32 := win1_3.stage (cfg1.slots t 3)
abbrev hs3 (t : Fin cfg1.N) : (ms3 t).IsWhole := hstage1_3 ((cfg1.slots t 3).cast nbuf1_3)
/-- The accumulator: a whole buffer of the kernel's own. -/
abbrev scM : Memref sig .tc .vmem S256x256 .f32 := Memref.whole cc1_scratch0
abbrev VS : View sig .tc .vmem S256x256 .f32 := scM.view

/-! ## The region invariant with the accumulator as a memref -/

/-- The first stage's five staging buffers, which this stage never touches, each at some contents. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant the launch hands the region, opened: the untouched buffers, the accumulator at some contents, the
    generator register at some state. -/
theorem PhiA_split (c : Dev nD) :
    (Pipeline.ΦA spec1 c : sProp 𝕄) ⊢ iprop(others (F := F) c ∗ (∃ d, owns (c : Thread nD τ) scM fullShare d) ∗ (∃ r, prngReg c r)) := by
  unfold Pipeline.ΦA others; rw [scopedRest1_eq]
  iintro ⟨⟨H0, H1, H2, H3, H4, ⟨%f, HS⟩⟩, Hg⟩
  isplitl [H0 H1 H2 H3 H4]
  · isplitl [H0]; · iexact H0
    isplitl [H1]; · iexact H1
    isplitl [H2]; · iexact H2
    isplitl [H3]; · iexact H3
    iexact H4
  isplitl [HS]
  · iexists f; simp only [scM, owns_whole]; iexact HS
  iexact Hg

/-- And closed again. -/
theorem PhiA_join (c : Dev nD) :
    iprop(others (F := F) c ∗ (∃ d, owns (c : Thread nD τ) scM fullShare d) ∗ (∃ r, prngReg c r)) ⊢ (Pipeline.ΦA spec1 c : sProp 𝕄) := by
  unfold Pipeline.ΦA others; rw [scopedRest1_eq]
  iintro ⟨⟨H0, H1, H2, H3, H4⟩, ⟨%d, HS⟩, Hg⟩
  isplitr [Hg]
  · isplitl [H0]; · iexact H0
    isplitl [H1]; · iexact H1
    isplitl [H2]; · iexact H2
    isplitl [H3]; · iexact H3
    isplitl [H4]; · iexact H4
    iexists d; simp only [scM, owns_whole]; iexact HS
  iexact Hg

end Cert.ReferenceIdeal.Reg1

end
-- ==== Proof.RRunA.lean ====
/-
  The second stage's body at the FIRST of eight points: the accumulator is reset to zero, the product of the adjacency
  block with the feature block is added into it, and the result window is left alone. The run finds the pieces the
  accumulator ends with.
-/
import proofs.«177554_g2000404061440129_pallasbulk_871_2_alg».proof.Proof.RRuns
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the result window at contents handed back untouched, the
    accumulator at anything — the body runs to the continuation holding the inputs as they were, the result window
    as it was, and the accumulator with its pieces written (last first). -/
noncomputable def runFirst (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : condFirst i) (hc1 : ¬condLast i)
    (x0 : Vec F S256x512 .f32) (x1 : Vec F S512x256 .f32) (x2 : Vec F S1x256 .f32) :
    Σ' (L3 : List (View.Piece (Elt F) S256x256 .f32)), { LS : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__adj_spmm_kernel i arg2 harg2 arg3 harg3 arg4 harg4 arg5 harg5 arg6 harg6) K } := by
  refine ⟨[], ?_, fun xi3 E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Reg1

end
-- ==== Proof.RRunB.lean ====
/-
  The second stage's body at a MIDDLE point of the eight: the product of the adjacency block with the feature block is
  added into the accumulator, which holds what the point before left; the result window is left alone.
-/
import proofs.«177554_g2000404061440129_pallasbulk_871_2_alg».proof.Proof.RRunA
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the result window at contents handed back untouched, the
    accumulator at what the point before left — the body runs to the continuation holding the inputs as they were, the
    result window as it was, and the accumulator with its pieces written (last first). -/
noncomputable def runMid (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : ¬condLast i)
    (x0 : Vec F S256x512 .f32) (x1 : Vec F S512x256 .f32) (x2 : Vec F S1x256 .f32) (xs : Vec F S256x256 .f32) :
    Σ' (L3 : List (View.Piece (Elt F) S256x256 .f32)), { LS : List (View.Piece (Elt F) S256x256 .f32) //
      ∀ (xi3 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__adj_spmm_kernel i arg2 harg2 arg3 harg3 arg4 harg4 arg5 harg5 arg6 harg6) K } := by
  refine ⟨[], ?_, fun xi3 E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.ReferenceIdeal.Reg1

end
-- ==== Proof.RRunC.lean ====
/-
  The second stage's body at the LAST of the eight points: the product of the adjacency block with the feature block is
  added into the accumulator, which holds what the point before left, and then the accumulator plus the bias row is
  stored into the result window.
-/
import proofs.«177554_g2000404061440129_pallasbulk_871_2_alg».proof.Proof.RRunB
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- On whole memrefs — the three inputs at their contents, the result window at anything, the accumulator at what the
    point before left — the body runs to the continuation holding the inputs as they were, and the result window and
    the accumulator each with its pieces written (last first). -/
noncomputable def runLast (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i)
    (x0 : Vec F S256x512 .f32) (x1 : Vec F S512x256 .f32) (x2 : Vec F S1x256 .f32) (xs : Vec F S256x256 .f32) :
    Σ' (L3 : List (View.Piece (Elt F) S256x256 .f32)), { LS : List (View.Piece (Elt F) S256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__adj_spmm_kernel i arg2 harg2 arg3 harg3 arg4 harg4 arg5 harg5 arg6 harg6) K } := by
  refine ⟨?_, ?_, fun E K => ?run⟩
  case run =>
    simp only [cc1__adj_spmm_kernel_eq_skeleton]; unfold cc1__adj_spmm_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Reg1

end
-- ==== Proof.RRegion1.lean ====
/-
  The second stage of the reference as one region: what its result window's staging buffer and its accumulator hold
  after each grid point, and the proof that the body, called at any point, takes them from the point before to that.

  Points come in runs of eight, one run per block of 256 rows. Writing s(n) for the accumulator after point n and o(n)
  for the result window's buffer: at the first point of a run s(n) is what the first case leaves from the point's three
  blocks; at every later point s(n) is what the middle (or last) case leaves from the blocks and s(n - 1); and at the
  last point of a run o(n) is what the last case stores. The region's invariant before point n + 1 holds the accumulator
  at s(n); before the first point it holds it at anything.
-/
import proofs.«177554_g2000404061440129_pallasbulk_871_2_alg».proof.Proof.RRunC
import Idealize.ShloMosaic.Lib.Pipeline.FrameBody
import Idealize.ShloMosaic.Lib.Ring
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- The first case's stores into the accumulator cover it. -/
theorem scoverFirst (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : condFirst i) (hc1 : ¬condLast i) (x0 : Vec F S256x512 .f32) (x1 : Vec F S512x256 .f32) (x2 : Vec F S1x256 .f32) (y : S256x256.Idx) :
    ∃ pc ∈ (runFirst c i arg2 harg2 arg3 harg3 arg4 harg4 arg5 harg5 arg6 harg6 hc0 hc1 x0 x1 x2).2.1, y ∈ pc.1.set :=
  View.cover_of_tiledL (runFirst c i arg2 harg2 arg3 harg3 arg4 harg4 arg5 harg5 arg6 harg6 hc0 hc1 x0 x1 x2).2.1 S256x256.size (by sl_kernel_rfl) y
/-- What the first case leaves in the accumulator. -/
def soutFirst (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : condFirst i) (hc1 : ¬condLast i) (x0 : Vec F S256x512 .f32) (x1 : Vec F S512x256 .f32) (x2 : Vec F S1x256 .f32) : Vec F S256x256 .f32 :=
  VS.read (Elt F) (VS.writes (Elt F) VS.junk (runFirst c i arg2 harg2 arg3 harg3 arg4 harg4 arg5 harg5 arg6 harg6 hc0 hc1 x0 x1 x2).2.1)
/-- The first case stores nothing into the result window: a placeholder nothing consults. -/
def outFirst (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : condFirst i) (hc1 : ¬condLast i) (x0 : Vec F S256x512 .f32) (x1 : Vec F S512x256 .f32) (x2 : Vec F S1x256 .f32) : Vec F S256x256 .f32 :=
  VO.read (Elt F) (VO.writes (Elt F) VO.junk (runFirst c i arg2 harg2 arg3 harg3 arg4 harg4 arg5 harg5 arg6 harg6 hc0 hc1 x0 x1 x2).1)

/-- The middle case's stores into the accumulator cover it. -/
theorem scoverMid (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : ¬condLast i) (x0 : Vec F S256x512 .f32) (x1 : Vec F S512x256 .f32) (x2 : Vec F S1x256 .f32) (xs : Vec F S256x256 .f32) (y : S256x256.Idx) :
    ∃ pc ∈ (runMid c i arg2 harg2 arg3 harg3 arg4 harg4 arg5 harg5 arg6 harg6 hc0 hc1 x0 x1 x2 xs).2.1, y ∈ pc.1.set :=
  View.cover_of_tiledL (runMid c i arg2 harg2 arg3 harg3 arg4 harg4 arg5 harg5 arg6 harg6 hc0 hc1 x0 x1 x2 xs).2.1 S256x256.size (by sl_kernel_rfl) y
/-- What the middle case leaves in the accumulator. -/
def soutMid (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : ¬condLast i) (x0 : Vec F S256x512 .f32) (x1 : Vec F S512x256 .f32) (x2 : Vec F S1x256 .f32) (xs : Vec F S256x256 .f32) : Vec F S256x256 .f32 :=
  VS.read (Elt F) (VS.writes (Elt F) VS.junk (runMid c i arg2 harg2 arg3 harg3 arg4 harg4 arg5 harg5 arg6 harg6 hc0 hc1 x0 x1 x2 xs).2.1)
/-- The middle case stores nothing into the result window: a placeholder nothing consults. -/
def outMid (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : ¬condLast i) (x0 : Vec F S256x512 .f32) (x1 : Vec F S512x256 .f32) (x2 : Vec F S1x256 .f32) (xs : Vec F S256x256 .f32) : Vec F S256x256 .f32 :=
  VO.read (Elt F) (VO.writes (Elt F) VO.junk (runMid c i arg2 harg2 arg3 harg3 arg4 harg4 arg5 harg5 arg6 harg6 hc0 hc1 x0 x1 x2 xs).1)

/-- The last case's stores into the accumulator cover it, -/
theorem scoverLast (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).2.1, y ∈ pc.1.set :=
  View.cover_of_tiledL (runLast c i arg2 harg2 arg3 harg3 arg4 harg4 arg5 harg5 arg6 harg6 hc0 hc1 x0 x1 x2 xs).2.1 S256x256.size (by sl_kernel_rfl) y
/-- and its store into the result window covers that. -/
theorem coverLast (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) (y : S256x256.Idx) :
    ∃ pc ∈ (runLast c i arg2 harg2 arg3 harg3 arg4 harg4 arg5 harg5 arg6 harg6 hc0 hc1 x0 x1 x2 xs).1, y ∈ pc.1.set :=
  View.cover_of_tiledL (runLast c i arg2 harg2 arg3 harg3 arg4 harg4 arg5 harg5 arg6 harg6 hc0 hc1 x0 x1 x2 xs).1 S256x256.size (by sl_kernel_rfl) y
/-- What the last case leaves in the accumulator. -/
def soutLast (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) : Vec F S256x256 .f32 :=
  VS.read (Elt F) (VS.writes (Elt F) VS.junk (runLast c i arg2 harg2 arg3 harg3 arg4 harg4 arg5 harg5 arg6 harg6 hc0 hc1 x0 x1 x2 xs).2.1)
/-- What the last case stores into the result window. -/
def outLast (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) : Vec F S256x256 .f32 :=
  VO.read (Elt F) (VO.writes (Elt F) VO.junk (runLast c i arg2 harg2 arg3 harg3 arg4 harg4 arg5 harg5 arg6 harg6 hc0 hc1 x0 x1 x2 xs).1)

/-! ## Point by point -/

/-- The pair (result window's buffer, accumulator) a point of the first case leaves. -/
def pairFirst (c : Dev nD) (t : Fin cfg1.N) (h0 : t.val % 8 = 0) (h1 : ¬t.val % 8 = 7) : Vec F S256x256 .f32 × Vec F S256x256 .f32 :=
  (outFirst c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t),
   soutFirst c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t))
/-- The pair a point of the middle case leaves, from the accumulator `xs` it found. -/
def pairMid (c : Dev nD) (t : Fin cfg1.N) (h0 : ¬t.val % 8 = 0) (h1 : ¬t.val % 8 = 7) (xs : Vec F S256x256 .f32) : Vec F S256x256 .f32 × Vec F S256x256 .f32 :=
  (outMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) xs,
   soutMid c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) xs)
/-- The pair a point of the last case leaves, from the accumulator `xs` it found. -/
def pairLast (c : Dev nD) (t : Fin cfg1.N) (h0 : ¬t.val % 8 = 0) (h1 : t.val % 8 = 7) (xs : Vec F S256x256 .f32) : Vec F S256x256 .f32 × Vec F S256x256 .f32 :=
  (outLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) xs,
   soutLast c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) xs)

/-- THE ACCUMULATION: the pair after the body at position `n`, by recursion on the point. -/
def outsAt (c : Dev nD) : (n : ℕ) → n < cfg1.N → Vec F S256x256 .f32 × Vec F S256x256 .f32
  | 0, hn => pairFirst V c ⟨0, hn⟩ (Nat.zero_mod 8) (by show ¬(0 % 8 = 7); decide)
  | n + 1, hn =>
    if h0 : (n + 1) % 8 = 0 then
      pairFirst V c ⟨n + 1, hn⟩ h0 (by show ¬((n + 1) % 8 = 7); omega)
    else
      if h1 : (n + 1) % 8 = 7 then
        pairLast V c ⟨n + 1, hn⟩ h0 h1 (outsAt c n (Nat.lt_of_succ_lt hn)).2
      else
        pairMid V c ⟨n + 1, hn⟩ h0 h1 (outsAt c n (Nat.lt_of_succ_lt hn)).2

theorem outsAt_first (c : Dev nD) (t : Fin cfg1.N) (h0 : t.val % 8 = 0) (h1 : ¬t.val % 8 = 7) :
    outsAt V c t.val t.isLt = pairFirst V c t h0 h1 := by
  obtain ⟨n, hn⟩ := t
  cases n with
  | zero => exact rfl
  | succ n => exact (dif_pos h0).trans rfl

theorem outsAt_mid (c : Dev nD) (t : Fin cfg1.N) (h0 : ¬t.val % 8 = 0) (h1 : ¬t.val % 8 = 7) :
    outsAt V c t.val t.isLt = pairMid V c t h0 h1 (outsAt V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_neg h1).trans rfl)

theorem outsAt_last (c : Dev nD) (t : Fin cfg1.N) (h0 : ¬t.val % 8 = 0) (h1 : t.val % 8 = 7) :
    outsAt V c t.val t.isLt = pairLast V c t h0 h1 (outsAt V c (t.val - 1) (Nat.lt_of_le_of_lt (Nat.sub_le _ _) t.isLt)).2 := by
  obtain ⟨n, hn⟩ := t
  cases n with
  | zero => exact absurd (Nat.zero_mod 8) h0
  | succ n => exact (dif_neg h0).trans ((dif_pos h1).trans rfl)

/-! ## The invariant and the proof data -/

/-- The region invariant before position `n`: before the first point the launch's; afterwards the untouched buffers, the
    accumulator at what the point before left, and the generator register at some state. -/
def PhiS (c : Dev nD) : (n : ℕ) → n ≤ cfg1.N → sProp 𝕄
  | 0, _ => Pipeline.ΦA spec1 c
  | n + 1, hn => iprop(others (F := F) c ∗ owns (c : Thread nD τ) scM fullShare ((outsAt V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare ((outsAt V c n hn).2) ∗ (∃ r, prngReg c r)) := rfl

theorem PhiS_pos (c : Dev nD) (n : ℕ) (h : n ≤ cfg1.N) (hz : n ≠ 0) :
    PhiS V c n h = iprop(others (F := F) c ∗ owns (c : Thread nD τ) scM fullShare ((outsAt V c (n - 1) (by omega)).2) ∗ (∃ r, prngReg c r)) := by
  cases n with
  | zero => exact absurd rfl hz
  | succ n => rfl

/-- The proof data of the region on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]

theorem Phi_castSucc (c : Dev nD) (t : Fin cfg1.N) :
    (dat V c).Φ t.castSucc = PhiS V c t.val (Nat.le_of_lt t.isLt) := by
  dsimp only [dat]; simp only [Fin.coe_castSucc]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = (outsAt V c t.val t.isLt).1 := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d

/-! ## The body obligation -/

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
/-- The body at any point: the input buffers hold their blocks; the point's position in its run of eight says which
    case it is in; the invariant hands the body the accumulator at what the point before left (at anything before the
    very first point) and takes it back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
      unfold Dat.leavesExact; rw [live_in0 t], after0]
  rw [show (dat V c).leavesExact 1 t = owns (c : Thread nD τ) (ms1 t) fullShare ((dat V c).after 1 t) from by
      unfold Dat.leavesExact; rw [live_in1 t], after1]
  rw [show (dat V c).leavesExact 2 t = owns (c : Thread nD τ) (ms2 t) fullShare ((dat V c).after 2 t) from by
      unfold Dat.leavesExact; rw [live_in2 t], after2]
  have hN : t.val < 128 := lt_of_lt_of_eq t.isLt (show cfg1.N = 128 from N_1)
  by_cases h0 : t.val % 8 = 0
  · have h1 : ¬t.val % 8 = 7 := by omega
    rw [Dat.leavesExact_idle (dat V c) 3 t (idle_out t (fun h => h1 ((hcondLast t).mp h))) (noFlush_out t (fun h => h1 ((hcondLast t).mp h)))]
    rw [outsAt_first V c t h0 h1]
    unfold pairFirst soutFirst; (try dsimp only)
    by_cases hz : t.val = 0
    · rw [Phi_castSucc V c t, PhiS_zero V c _ _ hz]
      iintro ⟨HΦ, Ho, ⟨%d0, H0⟩, ⟨%d1, H1⟩, ⟨%d2, H2⟩, ⟨%d3, H3⟩⟩
      ihave HΦ' := (PhiA_split (F := F) c) $$ HΦ
      icases HΦ' with ⟨Hoth, HS, Hg⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [Phi_castSucc V c t, PhiS_pos V c _ _ hz]
      iintro ⟨⟨Hoth, HS, Hg⟩, Ho, ⟨%d0, H0⟩, ⟨%d1, H1⟩, ⟨%d2, H2⟩, ⟨%d3, H3⟩⟩
      iapply ((runFirst c (grid1.coords t) _ _ _ _ _ _ _ _ _ _ ((hcondFirst t).mpr h0) (fun h => h1 ((hcondLast t).mp h)) (iblk V c 0 t) (iblk V c 1 t) (iblk V c 2 t)).2.2 _ Set.univ _)
      isplitl [H0]; · iexact H0
      isplitl [H1]; · iexact H1
      isplitl [H2]; · iexact H2
      isplitl [H3]; · iexact H3
      isplitl [HS]; · iexists _; iexact HS
      iintro ⟨H0, H1, H2, H3, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverFirst c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat V c).leavesExact 3 t = owns (c : Thread nD τ) (ms3 t) fullShare ((dat V c).after 3 t) from by
          unfold Dat.leavesExact; rw [live_out t ((hcondLast t).mpr h1)], after3]
      rw [outsAt_last V c t h0 h1]
      unfold pairLast outLast soutLast; (try dsimp only)
      rw [Phi_castSucc V c t, PhiS_pos V c _ _ hz]
      iintro ⟨⟨Hoth, HS, Hg⟩, Ho, ⟨%d0, H0⟩, ⟨%d1, H1⟩, ⟨%d2, H2⟩, ⟨%d3, H3⟩⟩
      iapply ((runLast c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverLast c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _ _ _)
    · rw [Dat.leavesExact_idle (dat V c) 3 t (idle_out t (fun h => h1 ((hcondLast t).mp h))) (noFlush_out t (fun h => h1 ((hcondLast t).mp h)))]
      rw [outsAt_mid V c t h0 h1]
      unfold pairMid soutMid; (try dsimp only)
      rw [Phi_castSucc V c t, PhiS_pos V c _ _ hz]
      iintro ⟨⟨Hoth, HS, Hg⟩, Ho, ⟨%d0, H0⟩, ⟨%d1, H1⟩, ⟨%d2, H2⟩, ⟨%d3, H3⟩⟩
      iapply ((runMid c (grid1.coords t) _ _ _ _ _ _ _ _ _ _ (fun h => h0 ((hcondFirst t).mp h)) (fun h => h1 ((hcondLast t).mp h)) (iblk V c 0 t) (iblk V c 1 t) (iblk V c 2 t) _).2.2 _ Set.univ _)
      isplitl [H0]; · iexact H0
      isplitl [H1]; · iexact H1
      isplitl [H2]; · iexact H2
      isplitl [H3]; · iexact H3
      isplitl [HS]; · iexact HS
      iintro ⟨H0, H1, H2, H3, ⟨%es, HS⟩⟩
      isplitl [Hoth HS Hg]
      · isplitl [Hoth]; · iexact Hoth
        isplitl [HS]
        · unfold owns; iexists _; isplitr
          swap; · iexact HS
          ipureintro; exact View.read_writes_of_cover _ _ _ _ _ (scoverMid c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : (Pipeline.ΦA spec1 c : sProp 𝕄) ⊢ (dat V c).Φ 0 := by
  rw [show (dat V c).Φ 0 = PhiS V c 0 (Nat.zero_le _) from rfl, PhiS_zero V c 0 _ rfl]

/-- After the last point the invariant gives the launch's back: the accumulator's contents are forgotten. -/
theorem hout (c : Dev nD) : (dat V c).Φ (Fin.last cfg1.N) ⊢ (Pipeline.ΦA spec1 c : sProp 𝕄) := by
  rw [show (dat V c).Φ (Fin.last cfg1.N) = PhiS V c (Fin.last cfg1.N).val (Nat.le_of_lt_succ (Fin.last cfg1.N).isLt) from rfl,
    PhiS_pos V c _ _ (by rw [Fin.val_last]; have : cfg1.N = 128 := N_1; omega)]
  refine .trans ?_ (PhiA_join (F := F) c)
  iintro ⟨Hoth, HS, Hg⟩
  isplitl [Hoth]; · iexact Hoth
  isplitl [HS]; · iexists _; iexact HS
  iexact Hg

end Cert.ReferenceIdeal.Reg1

end
-- ==== Proof.RRun.lean ====
/-
  The run of the reference, from the launch to the return. Its program is nine stretches of host operations (the four
  arguments padded by nothing and the bias reshaped to a row) followed by the two stages. The buffers' contents are
  followed stretch by stretch from the launch memory: a host stretch leaves what its operations compute; a stage leaves
  its windows' arrays at what its pipeline's write-backs make of them and every other buffer alone. Each stage is
  entered holding every unscoped buffer at the contents named for that point, beside the generator register and the
  core owing nothing, and is left the same way at the next contents; the first stage's proof data are taken at the
  contents after the ninth stretch and the second's at the contents the first leaves. The launch then gives: every run
  ends, and every unscoped buffer ends at the last contents named, which at the four arguments are the launch contents.
-/
import proofs.«177554_g2000404061440129_pallasbulk_871_2_alg».proof.Proof.Gen.ReferenceIdeal.Launch
import proofs.«177554_g2000404061440129_pallasbulk_871_2_alg».proof.Proof.Gen.ReferenceIdeal.Skeleton
import proofs.«177554_g2000404061440129_pallasbulk_871_2_alg».proof.Proof.Gen.ReferenceIdeal.Points
import proofs.«177554_g2000404061440129_pallasbulk_871_2_alg».proof.Proof.Gen.ReferenceIdeal.Regions
import proofs.«177554_g2000404061440129_pallasbulk_871_2_alg».proof.Proof.RRegion0
import proofs.«177554_g2000404061440129_pallasbulk_871_2_alg».proof.Proof.RRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.RRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items of the program -/

/-- Core `c`'s buffers at launch. -/
abbrev W0 : Dev nD → Valuation τ sig (Elt F) := fun c b => (s₀ m ρ).mem ((c : Dev nD), b)
/-- After the first stretch (a scalar zero). -/
abbrev W1 : Dev nD → Valuation τ sig (Elt F) := fun c => StableHlo.after hostOps0 (W0 m ρ c)
/-- After the second (the features padded by nothing). -/
abbrev W2 : Dev nD → Valuation τ sig (Elt F) := fun c => StableHlo.after hostOps0_1 (W1 m ρ c)
/-- After the third (a scalar zero). -/
abbrev W3 : Dev nD → Valuation τ sig (Elt F) := fun c => StableHlo.after hostOps0_2 (W2 m ρ c)
/-- After the fourth (the adjacency padded by nothing). -/
abbrev W4 : Dev nD → Valuation τ sig (Elt F) := fun c => StableHlo.after hostOps0_3 (W3 m ρ c)
/-- After the fifth (a scalar zero). -/
abbrev W5 : Dev nD → Valuation τ sig (Elt F) := fun c => StableHlo.after hostOps0_4 (W4 m ρ c)
/-- After the sixth (the weights padded by nothing). -/
abbrev W6 : Dev nD → Valuation τ sig (Elt F) := fun c => StableHlo.after hostOps0_5 (W5 m ρ c)
/-- After the seventh (a scalar zero). -/
abbrev W7 : Dev nD → Valuation τ sig (Elt F) := fun c => StableHlo.after hostOps0_6 (W6 m ρ c)
/-- After the eighth (the bias padded by nothing). -/
abbrev W8 : Dev nD → Valuation τ sig (Elt F) := fun c => StableHlo.after hostOps0_7 (W7 m ρ c)
/-- After the ninth (the bias as a row): what the first stage is entered from. -/
abbrev W9 : Dev nD → Valuation τ sig (Elt F) := fun c => StableHlo.after hostOps0_8 (W8 m ρ c)
/-- The same read at the core's own references (what the first stage's proof data take). -/
abbrev V9 : (c : Dev nD) → (b : Ref sig .tc) → Buf (Elt F) ((c : Thread nD τ).loc b) := fun c b => W9 m ρ c b

/-- When the first stage is left: its windows' arrays at what its pipeline leaves (the inputs as entered, the result's
    write-backs folded over all sixteen points), every other buffer as entered. What the second stage is entered from. -/
def W10 (c : Dev nD) : Valuation τ sig (Elt F) :=
  Pipeline.withArrays spec0 c (W9 m ρ c) fun w => (Reg0.dat (V9 m ρ) c).arrAt w cfg0.N
theorem W10_arr (c : Dev nD) (w : Fin cfg0.W) :
    W10 m ρ c (Proc.devRef .tc (Pipeline.arrRef spec0 w)) = (Reg0.dat (V9 m ρ) c).arrAt w cfg0.N := by
  unfold W10; exact Pipeline.withArrays_arr spec0 launch0.win.arr_inj c _ _ w
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- The same read at the core's own references. -/
abbrev V10 : (c : Dev nD) → (b : Ref sig .tc) → Buf (Elt F) ((c : Thread nD τ).loc b) := fun c b => W10 m ρ c b
/-- When the first stage is left each of its arrays holds what the pipeline leaves, and every other buffer what it held
    at entry. -/
theorem hF0 (c : Dev nD) (w : Fin cfg0.W) : (Reg0.dat (V9 m ρ) c).arrAt w cfg0.N = V10 m ρ c (Pipeline.arrRef spec0 w) :=
  (W10_arr m ρ c w).symm
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- When the second stage is left: its windows' arrays at what its pipeline leaves (the inputs as entered, the result's
    write-backs folded over all its points), every other buffer as entered. -/
def W11 (c : Dev nD) : Valuation τ sig (Elt F) :=
  Pipeline.withArrays spec1 c (W10 m ρ c) fun w => (Reg1.dat (V10 m ρ) c).arrAt w cfg1.N
theorem W11_arr (c : Dev nD) (w : Fin cfg1.W) :
    W11 m ρ c (Proc.devRef .tc (Pipeline.arrRef spec1 w)) = (Reg1.dat (V10 m ρ) c).arrAt w cfg1.N := by
  unfold W11; exact Pipeline.withArrays_arr spec1 launch1.win.arr_inj c _ _ w
theorem W11_of_ne (c : Dev nD) (b : Ref sig .tc) (hb : ∀ w, Pipeline.arrRef spec1 w ≠ b) :
    W11 m ρ c (Proc.devRef .tc b) = W10 m ρ c (Proc.devRef .tc b) := by
  unfold W11; exact Pipeline.withArrays_of_ne spec1 c _ _ b hb
/-- The same read at the core's own references. -/
abbrev V11 : (c : Dev nD) → (b : Ref sig .tc) → Buf (Elt F) ((c : Thread nD τ).loc b) := fun c b => W11 m ρ c b
theorem hF1 (c : Dev nD) (w : Fin cfg1.W) : (Reg1.dat (V10 m ρ) c).arrAt w cfg1.N = V11 m ρ c (Pipeline.arrRef spec1 w) :=
  (W11_arr m ρ c w).symm
theorem hrest1 (c : Dev nD) : ∀ b, b ∉ Finset.univ.image (Pipeline.arrRef spec1) → V11 m ρ c b = V10 m ρ c b :=
  fun b hb => W11_of_ne m ρ c b fun w e => hb (Finset.mem_image.mpr ⟨w, Finset.mem_univ _, e⟩)

/-! ### The arguments end as launched

    A buffer that no host operation writes holds after the nine stretches what it held at launch; no argument is
    written by a host operation, and none is a window's array of either stage. -/

/-- A buffer none of the nine stretches writes is, when the first stage is entered, as launched. -/
theorem W9_keep (c : Dev nD) (r : Ref sig .tc) (h0 : r ∉ (hostOps0_W : List (Ref sig .tc))) (h1 : r ∉ (hostOps0_1_W : List (Ref sig .tc)))
    (h2 : r ∉ (hostOps0_2_W : List (Ref sig .tc))) (h3 : r ∉ (hostOps0_3_W : List (Ref sig .tc))) (h4 : r ∉ (hostOps0_4_W : List (Ref sig .tc)))
    (h5 : r ∉ (hostOps0_5_W : List (Ref sig .tc))) (h6 : r ∉ (hostOps0_6_W : List (Ref sig .tc))) (h7 : r ∉ (hostOps0_7_W : List (Ref sig .tc)))
    (h8 : r ∉ (hostOps0_8_W : List (Ref sig .tc))) :
    W9 m ρ c (Proc.devRef .tc r) = m ((c : Thread nD τ).loc r) :=
  calc W9 m ρ c (Proc.devRef .tc r)
    _ = W8 m ρ c (Proc.devRef .tc r) := StableHlo.after_of_writes_sub hostOps0_8 _ hostOps0_8_writes h8
    _ = W7 m ρ c (Proc.devRef .tc r) := StableHlo.after_of_writes_sub hostOps0_7 _ hostOps0_7_writes h7
    _ = W6 m ρ c (Proc.devRef .tc r) := StableHlo.after_of_writes_sub hostOps0_6 _ hostOps0_6_writes h6
    _ = W5 m ρ c (Proc.devRef .tc r) := StableHlo.after_of_writes_sub hostOps0_5 _ hostOps0_5_writes h5
    _ = W4 m ρ c (Proc.devRef .tc r) := StableHlo.after_of_writes_sub hostOps0_4 _ hostOps0_4_writes h4
    _ = W3 m ρ c (Proc.devRef .tc r) := StableHlo.after_of_writes_sub hostOps0_3 _ hostOps0_3_writes h3
    _ = W2 m ρ c (Proc.devRef .tc r) := StableHlo.after_of_writes_sub hostOps0_2 _ hostOps0_2_writes h2
    _ = W1 m ρ c (Proc.devRef .tc r) := StableHlo.after_of_writes_sub hostOps0_1 _ hostOps0_1_writes h1
    _ = W0 m ρ c (Proc.devRef .tc r) := StableHlo.after_of_writes_sub hostOps0 _ hostOps0_writes h0
    _ = m ((c : Thread nD τ).loc r) := rfl

theorem W11_main_arg0 (c : Dev nD) : W11 m ρ c (Proc.devRef .tc main_arg0) = m ((c : Thread nD τ).loc main_arg0) :=
  calc W11 m ρ c (Proc.devRef .tc main_arg0)
    _ = W10 m ρ c (Proc.devRef .tc main_arg0) := W11_of_ne m ρ c main_arg0 (by decide)
    _ = W9 m ρ c (Proc.devRef .tc main_arg0) := W10_of_ne m ρ c main_arg0 (by decide)
    _ = m ((c : Thread nD τ).loc main_arg0) := W9_keep m ρ c main_arg0 (by decide) (by decide) (by decide) (by decide) (by decide) (by decide) (by decide) (by decide) (by decide)
theorem W11_main_arg1 (c : Dev nD) : W11 m ρ c (Proc.devRef .tc main_arg1) = m ((c : Thread nD τ).loc main_arg1) :=
  calc W11 m ρ c (Proc.devRef .tc main_arg1)
    _ = W10 m ρ c (Proc.devRef .tc main_arg1) := W11_of_ne m ρ c main_arg1 (by decide)
    _ = W9 m ρ c (Proc.devRef .tc main_arg1) := W10_of_ne m ρ c main_arg1 (by decide)
    _ = m ((c : Thread nD τ).loc main_arg1) := W9_keep m ρ c main_arg1 (by decide) (by decide) (by decide) (by decide) (by decide) (by decide) (by decide) (by decide) (by decide)
theorem W11_main_arg2 (c : Dev nD) : W11 m ρ c (Proc.devRef .tc main_arg2) = m ((c : Thread nD τ).loc main_arg2) :=
  calc W11 m ρ c (Proc.devRef .tc main_arg2)
    _ = W10 m ρ c (Proc.devRef .tc main_arg2) := W11_of_ne m ρ c main_arg2 (by decide)
    _ = W9 m ρ c (Proc.devRef .tc main_arg2) := W10_of_ne m ρ c main_arg2 (by decide)
    _ = m ((c : Thread nD τ).loc main_arg2) := W9_keep m ρ c main_arg2 (by decide) (by decide) (by decide) (by decide) (by decide) (by decide) (by decide) (by decide) (by decide)
theorem W11_main_arg3 (c : Dev nD) : W11 m ρ c (Proc.devRef .tc main_arg3) = m ((c : Thread nD τ).loc main_arg3) :=
  calc W11 m ρ c (Proc.devRef .tc main_arg3)
    _ = W10 m ρ c (Proc.devRef .tc main_arg3) := W11_of_ne m ρ c main_arg3 (by decide)
    _ = W9 m ρ c (Proc.devRef .tc main_arg3) := W10_of_ne m ρ c main_arg3 (by decide)
    _ = m ((c : Thread nD τ).loc main_arg3) := W9_keep m ρ c main_arg3 (by decide) (by decide) (by decide) (by decide) (by decide) (by decide) (by decide) (by decide) (by decide)

/-! ## The proof data of the two pipelines and the thread state between items -/

/-- The prefetched tables' admissible contents: neither pipeline has a table. -/
abbrev adm : (p : Fin 2) → (pcfgs (F := F) p).Adm := fun p => (cfgs p).toPCfg_adm
/-- Both pipelines' proof data, each at the contents its stage is entered from. -/
def pdats : (p : Fin 2) → (c : Dev nD) → Dat τ (Elt F) Unit ℕ (UR sig nD τ) ℕ (Pipeline.pin (pcfgs (F := F)) adm p) c
  | ⟨0, _⟩ => fun c => Reg0.dat (V9 m ρ) c
  | ⟨1, _⟩ => fun c => Reg1.dat (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its debts, none. -/
abbrev R (c : Dev nD) : sProp 𝕄 := iprop((∃ r, prngReg c r) ∗ ∃ W, owes (c : Thread nD τ) (0 : CellTallies nD τ sig Unit) W)
/-- A host stretch as an item: over the unscoped references from the contents `W`, `R` riding along; it is left at
    the stretch's result over `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the debts: every unscoped buffer at the last contents, the generator register at some
    state. -/
abbrev Tₙ (c : Dev nD) : sProp 𝕄 := iprop(StableHlo.held (c : Thread nD τ) (Pipeline.ucRefs τ sig) (W11 m ρ c) ∗ ∃ r, prngReg c r)

/-! ## The two stages as items -/

set_option backward.isDefEq.respectTransparency.types false in
/-- The first stage over the thread state: entered from every unscoped buffer at `W9`, left at `W10`. Its arrays are
    split out of the unscoped buffers and put back at what the pipeline leaves; the generator register goes into the
    pipeline's invariant and comes back; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (V9 m ρ) c).loose
  hwaits := Pipeline.hwaits_of_owed_zero _ _ _ _ L lv 0 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec0 c (V9 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second stage over the thread state: entered from every unscoped buffer at `W10`, left at `W11`. As the
    first, but for its invariant: the scoped rest and the generator register make the invariant before the first point
    (the accumulator is among the scoped rest, at anything), and the invariant after the last point gives them back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (V10 m ρ) c).loose
  hwaits := Pipeline.hwaits_of_owed_zero _ _ _ _ L lv 1 fun _ _ => rfl
  pre c := iprop(StableHlo.held (c : Thread nD τ) (Pipeline.ucRefs τ sig) (W10 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V10 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Reg1.dat (V10 m ρ) c).Φ 0 from rfl]
    refine .trans ?_ (Reg1.hin (V10 m ρ) c)
    unfold Pipeline.ΦA
    iintro ⟨Hp, -, Hr⟩
    isplitl [Hr]; · iexact Hr
    iexact Hp
  hout c := by
    rw [Pipeline.ownSems0_none, show (pdats m ρ 1 c).Φ (Fin.last _) = (Reg1.dat (V10 m ρ) c).Φ (Fin.last cfg1.N) from rfl]
    refine (Reg1.hout (V10 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V10 m ρ c) (V11 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its items, and the launch -/

/-- The program's eleven items in order: a host item per stretch from the contents named before it, then the two stages. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .region (reg0 m ρ),
    .region (reg1 m ρ) ]
/-- The program is the run of its items. -/
theorem main_run (c : Dev nD) : main (F := F) c = Pipeline.Seg.run (segs m ρ) := (main_chain c).trans (by chain_rfl)

set_option backward.isDefEq.respectTransparency.types false in
/-- THE RUN. From any memory with zero counters, every weakly fair execution of the program on the cores terminates,
    nothing faulting, and in every final state every unscoped buffer of every core holds the last contents named. -/
theorem run_all : θ_run defs (onTc (τ := τ) (main (F := F))) ⟨m, fun _ => 0, ρ⟩ (fun r => ∀ c : Dev nD,
      ∀ b, b ∈ Pipeline.ucRefs τ sig → r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun _ h => h)

end Cert.ReferenceIdeal.RRun

end
-- ==== Proof.RVHost.lean ====
/-
  What the reference's first stage finds in its buffers, in terms of the launch memory.

  Before the first stage the program pads each of its four arguments by zero entries on every side and reshapes the
  padded bias, 256 entries, into one row of 256. A pad by nothing reads its operand at every index, so the padded
  features, adjacency and weights are the arguments as launched; and entry (0, j) of the bias row has the same position
  in row-major order as entry j of the bias, so it is the bias as launched at j.
-/
import proofs.«177554_g2000404061440129_pallasbulk_871_2_alg».proof.Proof.RRun
import Idealize.ShloMosaic.Lib.KernelVsHost
import Idealize.ShloMosaic.Lib.Pipeline.Value
import Idealize.ShloMosaic.Lib.ValueIdx

set_option maxRecDepth 16384

noncomputable section

namespace Cert.ReferenceIdeal.RVHost

open Idealize.ShloMosaic Idealize.ShloMosaic.ValueIdx Idealize.ShloMosaic.TcCoe
open Idealize.SL Idealize.SL.Sem
open Cert.ReferenceIdeal Cert.ReferenceIdeal.Gen Cert.ReferenceIdeal.RRun

variable {F : FTy → Type} [FloatOps F]
variable (m : (ℓ : Loc nD τ sig) → Buf (Elt F) ℓ) (ρ : Dev nD → PrngReg)

/-- A pad that adds nothing below and nothing between entries, to the operand's own shape, is the operand: every index
    of the result is inside the operand's image, at the same index. -/
theorem pad_nothing {α : Type} {s u : Shape} (lo hi interior : Fin s.rank → Nat) (x : s.Idx → α) (v : u.Idx → α)
    (h : s.Pads lo hi interior s) (hu : 0 < u.numel) (hlo : ∀ a, lo a = 0) (hint : ∀ a, interior a = 0) :
    pad s lo hi interior x v h hu = x :=
  funext fun j => pad_apply_of_inside lo hi interior x v h hu j j fun a => by
    rw [hlo a, hint a]; simp

/-- The widths of the pads: zero on both axes of a matrix, zero on the one axis of a vector. -/
theorem widths2 : ∀ a : Fin 2, (![0, 0] : Fin 2 → Nat) a = 0 := fun a => by fin_cases a <;> rfl
theorem widths1 : ∀ a : Fin 1, (![0] : Fin 1 → Nat) a = 0 := fun a => by fin_cases a; rfl

/-- When the first stage is entered the padded features are the features as launched. -/
theorem features_in (c : Dev nD) :
    (W9 m ρ c (Proc.devRef .tc main_v0) : S4096x256.Idx → Elt F .f32) = m ((c : Thread nD τ).loc main_arg0) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S4096x256) S4096x256 ![0, 0] ![0, 0] ![0, 0] (m ((c : Thread nD τ).loc main_arg0))
    (sitofp (F := F) .f32 (constantI S_ 32 0#32)) pads_S4096x256_S4096x256_000_000 h_S_) rfl
    (pad_nothing _ _ _ _ _ _ _ widths2 widths2)

/-- When the first stage is entered the padded adjacency is the adjacency as launched. -/
theorem adjacency_in (c : Dev nD) :
    (W9 m ρ c (Proc.devRef .tc main_v1) : S4096x4096.Idx → Elt F .f32) = m ((c : Thread nD τ).loc main_arg1) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S4096x4096) S4096x4096 ![0, 0] ![0, 0] ![0, 0] (m ((c : Thread nD τ).loc main_arg1))
    (sitofp (F := F) .f32 (constantI S_ 32 0#32)) pads_S4096x4096_S4096x4096_000_000 h_S_) rfl
    (pad_nothing _ _ _ _ _ _ _ widths2 widths2)

/-- When the first stage is entered the padded weights are the weights as launched. -/
theorem weights_in (c : Dev nD) :
    (W9 m ρ c (Proc.devRef .tc main_v2) : S256x256.Idx → Elt F .f32) = m ((c : Thread nD τ).loc main_arg2) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  exact Eq.trans (b := pad (s := S256x256) S256x256 ![0, 0] ![0, 0] ![0, 0] (m ((c : Thread nD τ).loc main_arg2))
    (sitofp (F := F) .f32 (constantI S_ 32 0#32)) pads_S256x256_S256x256_000_000 h_S_) rfl
    (pad_nothing _ _ _ _ _ _ _ widths2 widths2)

/-- When the first stage is entered, entry (0, j) of the bias row is the bias as launched at j. -/
theorem bias_row_in (c : Dev nD) (j : Fin 256) :
    (W9 m ρ c (Proc.devRef .tc main_v4) : S1x256.Idx → Elt F .f32) (ix2 0 j)
      = (m ((c : Thread nD τ).loc main_arg3) : S256.Idx → Elt F .f32) (ix1 j) := by
  dsimp only [W9, W8, W7, W6, W5, W4, W3, W2, W1, W0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  refine Eq.trans (b := shapeCast (s := S256) S1x256 (pad (s := S256) S256 ![0] ![0] ![0] (m ((c : Thread nD τ).loc main_arg3))
    (sitofp (F := F) .f32 (constantI S_ 32 0#32)) pads_S256_S256_000 h_S_) shapeCasts_S256_S1x256 (ix2 0 j)) rfl ?_
  rw [pad_nothing _ _ _ _ _ _ _ widths1 widths1]
  refine shapeCast_apply _ _ (ix2 0 j) (ix1 j) ?_
  rw [Shape.rowMajor_val_one, Shape.rowMajor_val_two]
  show j.val = ((0 : Fin 1) : Nat) * 256 + j.val
  simp

end Cert.ReferenceIdeal.RVHost

end
-- ==== Proof.RPay.lean ====
/-
  The payloads of the two-stage program, read at one entry over the extended reals.

  The first stage writes, for its block of rows, the plain product of a 256 by 256 block of features with the 256 by 256
  weights, accumulated into an all-zero array: at entry (i, j) that is the sum over q of x0 (i, q) · x1 (q, j).

  The second stage keeps a running 256 by 256 accumulator. Its reset value is the splat of the f32 word zero, which is
  the extended real 0 at every entry. Its update adds, to the accumulator, the plain product of a 256 by 512 block of the
  adjacency with a 512 by 256 block of the projected features (again accumulated into an all-zero array): at entry (i, j)
  the accumulator's entry plus the sum over q of x0 (i, q) · x1 (q, j). Its final value adds the bias row, repeated down
  the rows: at entry (i, j) the accumulator's entry plus b (0, j).

  A cast of an array to its own shape is the identity, an addition of arrays is entrywise, and the row broadcast from
  1 by 256 to 256 by 256 reads entry (0, j) at entry (i, j); nothing else is used.
-/
import proofs.«177554_g2000404061440129_pallasbulk_871_2_alg».proof.Proof.Gen.ReferenceIdeal.Skeleton
import proofs.«177554_g2000404061440129_pallasbulk_871_2_alg».proof.Proof.LibDotPlain
import Idealize.ShloMosaic.Lib.Pipeline.Value
import Idealize.ShloMosaic.Lib.ValueIdx
import Idealize.ShloMosaic.PureOps.Ideal.Laws

noncomputable section

open scoped BigOperators

namespace Cert.ReferenceIdeal.RPay

open Idealize.ShloMosaic Idealize.ShloMosaic.ValueIdx
open Cert.ReferenceIdeal Cert.ReferenceIdeal.Gen

/-- The first stage's product has the dimension numbers of the plain 256 by 256 times 256 by 256 product. -/
theorem dims0 : dot_S256x256_S256x256_S256x256_1_0_0_1_n_n = DotDims.plain 256 256 256 := rfl

/-- The second stage's product has the dimension numbers of the plain 256 by 512 times 512 by 256 product. -/
theorem dims1 : dot_S256x512_S512x256_S256x256_1_0_0_1_n_n = DotDims.plain 256 512 256 := rfl

/-- The first stage's block at (i, j): the sum over q of x0 (i, q) · x1 (q, j). -/
theorem pay0_apply (x0 x1 : Vec Ideal S256x256 .f32) (i j : Fin 256) :
    k0_pay1 (F := Ideal) x0 x1 (ix2 i j) = ∑ q : Fin 256, x0 (ix2 i q) * x1 (ix2 q j) := by
  unfold k0_pay1
  simp only [shapeCast_self]
  rw [dims0]
  exact Cert.LibDotPlain.matmul_zero_plain 256 256 256 none x0 x1 i j

/-- The accumulator's reset value at (i, j): the extended real 0. -/
theorem zero_apply (i j : Fin 256) : k1_pay1 (F := Ideal) (ix2 i j) = 0 := by
  unfold k1_pay1
  simp only [shapeCast_self]
  rw [broadcast_apply]
  exact Ideal.ofBits_zero_f32

/-- The updated accumulator at (i, j): its former entry plus the sum over q of x0 (i, q) · x1 (q, j). -/
theorem acc_apply (xs : Vec Ideal S256x256 .f32) (x0 : Vec Ideal S256x512 .f32) (x1 : Vec Ideal S512x256 .f32)
    (i j : Fin 256) :
    k1_pay2 (F := Ideal) xs x0 x1 (ix2 i j) = xs (ix2 i j) + ∑ q : Fin 512, x0 (ix2 i q) * x1 (ix2 q j) := by
  unfold k1_pay2
  simp only [shapeCast_self]
  rw [dims1, addf_apply]
  congr 1
  exact Cert.LibDotPlain.matmul_zero_plain 256 512 256 none x0 x1 i j

/-- The stored result at (i, j): the accumulator's entry plus the bias row's entry at column j. -/
theorem fin_apply (acc : Vec Ideal S256x256 .f32) (b : Vec Ideal S1x256 .f32) (i j : Fin 256) :
    k1_pay3 (F := Ideal) acc b (ix2 i j) = acc (ix2 i j) + b (ix2 0 j) := by
  unfold k1_pay3
  simp only [shapeCast_self]
  rw [addf_apply]
  congr 1
  refine broadcastTo_apply b _ (ix2 i j) (ix2 0 j) fun d => ?_
  match d with
  | ⟨0, _⟩ => rfl
  | ⟨1, _⟩ => rfl

end Cert.ReferenceIdeal.RPay

end
-- ==== Proof.RValue0.lean ====
/-
  The reference's first stage leaves the projected features x W in its result array.

  The stage walks sixteen grid points. At point t it reads rows 256 t to 256 t + 255 of the features x (all 256 columns)
  and the whole 256 by 256 weights W, and writes the 256 by 256 product of the two blocks into rows 256 t to 256 t + 255
  of the result. Entry (p, q) of that product is the sum over r of x (256 t + p, r) · W (r, q), which is entry
  (256 t + p, q) of x W: each point writes back its own block of the one array x W. Row i of the result lies in the
  block of point i / 256, so the sixteen blocks cover the array and the stage ends with the result holding x W. All of
  this holds for any contents of the buffers when the stage is entered.
-/
import proofs.«177554_g2000404061440129_pallasbulk_871_2_alg».proof.Proof.RRegion0
import proofs.«177554_g2000404061440129_pallasbulk_871_2_alg».proof.Proof.RPay
import proofs.«177554_g2000404061440129_pallasbulk_871_2_alg».proof.Proof.Spec
import Idealize.ShloMosaic.Lib.Pipeline.Value

set_option maxRecDepth 16384

noncomputable section

open scoped BigOperators

namespace Cert.ReferenceIdeal.RValue0

open Idealize.ShloMosaic Idealize.ShloMosaic.ValueIdx Idealize.ShloMosaic.TcCoe
open Idealize.SL Idealize.SL.Sem
open Idealize.ShloMosaic.Pipeline (Dat Cfg Window)
open Cert.ReferenceIdeal Cert.ReferenceIdeal.Gen

variable (V : (c : Dev nD) → (b : Ref sig .tc) → Buf (Elt Ideal) ((c : Thread nD τ).loc b))

/-- The offsets of an access to a whole buffer are zero on both axes. -/
theorem offsets_zero : (![0, 0] : Fin 2 → Nat) = fun _ => 0 := funext fun a => by fin_cases a <;> rfl

/-- Where the windows sit at point t: the features' block and the result's block at block row t, block column 0; the
    weights' block at (0, 0) throughout. -/
theorem blocks_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 256 t .. 256 t + 255 of x W, for x and W as the stage finds them. -/
theorem flushed_eq (c : Dev nD) (t : Fin cfg0.N) :
    (Reg0.dat V c).flushed 2 t = ((cfg0.win 2).blk t).view.read (Elt Ideal)
      (Cert.Spec.XW (V c main_v0) (V c main_v2)) := by
  show (cfg0.win 2).cut (grid0.coords t) ((Reg0.dat V c).after 2 t) = _
  rw [Reg0.after2]
  unfold Reg0.out2
  rw [View.canon_unit_zero offsets_zero]
  simp only [View.ld_unit_zero (S := S256x256) offsets_zero]
  obtain ⟨e00, e01, e10, e11, e20, e21⟩ := blocks_at t
  have ht : t.val < 16 := lt_of_lt_of_eq t.isLt N_0
  funext j
  obtain ⟨p, q, rfl⟩ : ∃ (p : Fin 256) (q : Fin 256), j = ix2 p q := ⟨j 0, j 1, eq_ix2 j⟩
  have hp : p.val < 256 := p.isLt
  show k0_pay1 (Reg0.iblk V c 0 t) (Reg0.iblk V c 1 t) (ix2 p q)
    = Cert.Spec.XW (V c main_v0) (V c main_v2) (((cfg0.win 2).blk t).view.emb (ix2 p q))
  have hrow : ((cfg0.win 2).blk t).view.emb (ix2 p q) = ix2 (⟨256 * t.val + p.val, by omega⟩ : Fin 4096) q := by
    funext a; apply Fin.ext
    match a with
    | ⟨0, _⟩ => show win0_2.index t (0 : Fin 2) * 256 + 1 * p.val = 256 * t.val + p.val; omega
    | ⟨1, _⟩ => show win0_2.index t (1 : Fin 2) * 256 + 1 * q.val = q.val; omega
  rw [hrow, Cert.Spec.XW_apply]
  refine (RPay.pay0_apply _ _ p q).trans ?_
  unfold Cert.Spec.xw
  refine Finset.sum_congr rfl fun r _ => ?_
  congr 1
  · show V c main_v0 (((cfg0.win 0).blk t).view.emb (ix2 p r)) = V c main_v0 (ix2 ⟨256 * t.val + p.val, _⟩ r)
    refine congrArg _ (funext fun a => Fin.ext ?_)
    match a with
    | ⟨0, _⟩ => show win0_0.index t (0 : Fin 2) * 256 + 1 * p.val = 256 * t.val + p.val; omega
    | ⟨1, _⟩ => show win0_0.index t (1 : Fin 2) * 256 + 1 * r.val = r.val; omega
  · show V c main_v2 (((cfg0.win 1).blk t).view.emb (ix2 r q)) = V c main_v2 (ix2 r q)
    refine congrArg _ (funext fun a => Fin.ext ?_)
    match a with
    | ⟨0, _⟩ => show win0_1.index t (0 : Fin 2) * 256 + 1 * r.val = r.val; omega
    | ⟨1, _⟩ => show win0_1.index t (1 : Fin 2) * 256 + 1 * q.val = q.val; omega

/-- An index of the result array lies in point t's block exactly when each coordinate lies in the block's range. -/
theorem mem_blk (t : Fin cfg0.N) (i : S4096x256.Idx) :
    i ∈ ((cfg0.win 2).blk t).view.set ↔ ∀ a : Fin 2, win0_2.index t a * S256x256.size a ≤ (i a).val
      ∧ (i a).val < win0_2.index t a * S256x256.size a + S256x256.size a := by
  show i ∈ ((View.whole main_v5).slice (win0_2.rect t)).set ↔ _
  rw [View.set_slice_whole, Rect.mem_set_unit]
  exact Iff.rfl

/-- Every index of the result array lies in some point's block: row i is written by point i / 256. -/
theorem covered (i : S4096x256.Idx) :
    ∃ t : Fin cfg0.N, (cfg0.win 2).flush t = true ∧ i ∈ ((cfg0.win 2).blk t).view.set := by
  have hi0 : (i 0).val < 4096 := (i 0).isLt
  have hi1 : (i 1).val < 256 := (i 1).isLt
  have ht16 : (i 0).val / 256 < cfg0.N := lt_of_lt_of_eq (by omega : (i 0).val / 256 < 16) N_0.symm
  obtain ⟨-, -, -, -, e20, e21⟩ := blocks_at ⟨(i 0).val / 256, ht16⟩
  have e20' : win0_2.index ⟨(i 0).val / 256, ht16⟩ (0 : Fin 2) = (i 0).val / 256 := e20
  refine ⟨⟨(i 0).val / 256, ht16⟩, flush0_2 _, ?_⟩
  rw [mem_blk]
  intro a
  match a with
  | ⟨0, _⟩ =>
    show win0_2.index ⟨(i 0).val / 256, ht16⟩ (0 : Fin 2) * 256 ≤ (i 0).val
      ∧ (i 0).val < win0_2.index ⟨(i 0).val / 256, ht16⟩ (0 : Fin 2) * 256 + 256
    omega
  | ⟨1, _⟩ =>
    show win0_2.index ⟨(i 0).val / 256, ht16⟩ (1 : Fin 2) * 256 ≤ (i 1).val
      ∧ (i 1).val < win0_2.index ⟨(i 0).val / 256, ht16⟩ (1 : Fin 2) * 256 + 256
    omega

/-- The stage's result array when the stage is over: x W of the features and the weights as the stage finds them. -/
theorem final (c : Dev nD) :
    (Reg0.dat V c).arrAt 2 cfg0.N = Cert.Spec.XW (V c main_v0) (V c main_v2) :=
  (Reg0.dat V c).arrAt_eq_of_cover 2 _ (fun t _ => flushed_eq V c t) covered

end Cert.ReferenceIdeal.RValue0

end
-- ==== Proof.RClosed.lean ====
/-
  The three cases of the second stage in closed form, and what they say of the accumulation point by point.

  At a point of its grid the second stage's body leaves, in its 256 by 256 accumulator, one of three things. At the
  first of eight points it stores the all-zero array, reads it back and stores the update of that by the point's
  adjacency block and feature block: the later store covers the whole accumulator, so the accumulator ends as the update
  of the zero array. At a middle point it stores the update of the accumulator it found. At the last of eight points it
  does the same and then stores, into the result window, the accumulator it reads back (the update just stored) plus the
  bias row. Each store and each load is through the whole buffer (the rectangle of the buffer's own sizes at offsets
  zero), so a load reads the contents and one covering store leaves its payload.

  From these and the recursion that defines the pair (result window's buffer, accumulator) after each point: at the
  first of eight points the accumulator is the update of zero; at any other point it is the update of the accumulator
  after the point before; and at the last of eight points the result window's buffer is that point's accumulator plus
  the bias row.
-/
import proofs.«177554_g2000404061440129_pallasbulk_871_2_alg».proof.Proof.RRegion1
import Idealize.ShloMosaic.Lib.Pipeline.Value
import Idealize.ShloMosaic.Lib.Pipeline.FrameBody
import Idealize.ShloMosaic.Lib.Tactic

set_option maxRecDepth 16384

noncomputable section

namespace Cert.ReferenceIdeal.Reg1

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The offsets of a whole-buffer access are zero on both axes. -/
theorem hz : (![0, 0] : Fin 2 → Nat) = fun _ => 0 := funext fun a => by fin_cases a <;> rfl

/-! ## What each case leaves, as a payload of the blocks -/

/-- The first case leaves the update of the all-zero array: the reset is read back through the whole accumulator, and
    the update's store, coming last, covers it. -/
theorem soutFirst_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : condFirst i) (hc1 : ¬condLast i) (x0 : Vec F S256x512 .f32) (x1 : Vec F S512x256 .f32) (x2 : Vec F S1x256 .f32) :
    soutFirst c i arg2 harg2 arg3 harg3 arg4 harg4 arg5 harg5 arg6 harg6 hc0 hc1 x0 x1 x2 = k1_pay2 (k1_pay1 (F := F)) x0 x1 := by
  unfold soutFirst
  rw [View.read_writes_eq_canon _ _ _ (scoverFirst c i arg2 harg2 arg3 harg3 arg4 harg4 arg5 harg5 arg6 harg6 hc0 hc1 x0 x1 x2)]
  unfold runFirst
  dsimp only
  sl_unfold_words
  rw [View.canon_cons_unit_zero (S := S256x256) hz, View.readCov_unit_zero (S := S256x256) _ hz]
  simp only [View.readAt_eq_ld, harg2.read_unread, harg3.read_unread, View.ld_unit_zero (S := S256x512) hz,
    View.ld_unit_zero (S := S512x256) hz]

/-- The middle case leaves the update of the accumulator it found. -/
theorem soutMid_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : ¬condLast i) (x0 : Vec F S256x512 .f32) (x1 : Vec F S512x256 .f32) (x2 : Vec F S1x256 .f32) (xs : Vec F S256x256 .f32) :
    soutMid c i arg2 harg2 arg3 harg3 arg4 harg4 arg5 harg5 arg6 harg6 hc0 hc1 x0 x1 x2 xs = k1_pay2 xs x0 x1 := by
  unfold soutMid
  rw [View.read_writes_eq_canon _ _ _ (scoverMid c i arg2 harg2 arg3 harg3 arg4 harg4 arg5 harg5 arg6 harg6 hc0 hc1 x0 x1 x2 xs)]
  unfold runMid
  dsimp only
  sl_unfold_words
  rw [View.canon_unit_zero hz]
  simp only [View.readAt_eq_ld, harg2.read_unread, harg3.read_unread, harg6.read_unread,
    View.ld_unit_zero (S := S256x512) hz, View.ld_unit_zero (S := S512x256) hz, View.ld_unit_zero (S := S256x256) hz]

/-- The last case leaves, in the accumulator, the update of the accumulator it found, -/
theorem soutLast_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) :
    soutLast c i arg2 harg2 arg3 harg3 arg4 harg4 arg5 harg5 arg6 harg6 hc0 hc1 x0 x1 x2 xs = k1_pay2 xs x0 x1 := by
  unfold soutLast
  rw [View.read_writes_eq_canon _ _ _ (scoverLast c i arg2 harg2 arg3 harg3 arg4 harg4 arg5 harg5 arg6 harg6 hc0 hc1 x0 x1 x2 xs)]
  unfold runLast
  dsimp only
  sl_unfold_words
  rw [View.canon_unit_zero hz]
  simp only [View.readAt_eq_ld, harg2.read_unread, harg3.read_unread, harg6.read_unread,
    View.ld_unit_zero (S := S256x512) hz, View.ld_unit_zero (S := S512x256) hz, View.ld_unit_zero (S := S256x256) hz]

/-- and in the result window that update, read back through the whole accumulator, plus the bias row. -/
theorem outLast_eq (c : Dev nD) (i : grid1.Coords) (arg2 : Memref sig .tc .vmem S256x512 .f32) (harg2 : arg2.IsWhole) (arg3 : Memref sig .tc .vmem S512x256 .f32) (harg3 : arg3.IsWhole) (arg4 : Memref sig .tc .vmem S1x256 .f32) (harg4 : arg4.IsWhole) (arg5 : Memref sig .tc .vmem S256x256 .f32) (harg5 : arg5.IsWhole) (arg6 : Memref sig .tc .vmem S256x256 .f32) (harg6 : arg6.IsWhole) (hc0 : ¬condFirst i) (hc1 : condLast i) (x0 : Vec F S256x512 .f32) (x1 : Vec F S512x256 .f32) (x2 : Vec F S1x256 .f32) (xs : Vec F S256x256 .f32) :
    outLast c i arg2 harg2 arg3 harg3 arg4 harg4 arg5 harg5 arg6 harg6 hc0 hc1 x0 x1 x2 xs = k1_pay3 (k1_pay2 xs x0 x1) x2 := by
  unfold outLast
  rw [View.read_writes_eq_canon _ _ _ (coverLast c i arg2 harg2 arg3 harg3 arg4 harg4 arg5 harg5 arg6 harg6 hc0 hc1 x0 x1 x2 xs)]
  unfold runLast
  dsimp only
  sl_unfold_words
  rw [View.canon_unit_zero hz, View.readCov_unit_zero (S := S256x256) _ hz]
  simp only [View.readAt_eq_ld, harg2.read_unread, harg3.read_unread, harg4.read_unread, harg6.read_unread,
    View.ld_unit_zero (S := S256x512) hz, View.ld_unit_zero (S := S512x256) hz, View.ld_unit_zero (S := S256x256) hz,
    View.ld_unit_zero (S := S1x256) hz]

/-! ## The accumulation, point by point -/

-- the buffer contents when the region is entered
variable (V : (c : Dev nD) → (b : Ref sig .tc) → Buf (Elt F) ((c : Thread nD τ).loc b))

/-- At the first of eight points the accumulator is the update of the all-zero array by the point's two blocks. -/
theorem acc_first (c : Dev nD) (t : Fin cfg1.N) (h0 : t.val % 8 = 0) :
    (outsAt V c t.val t.isLt).2 = k1_pay2 (k1_pay1 (F := F)) (iblk V c 0 t) (iblk V c 1 t) := by
  have h1 : ¬t.val % 8 = 7 := by omega
  rw [outsAt_first V c t h0 h1]
  unfold pairFirst
  dsimp only
  exact soutFirst_eq c (grid1.coords t) (ms0 t) (hs0 t) (ms1 t) (hs1 t) (ms2 t) (hs2 t) (ms3 t) (hs3 t) scM (Memref.isWhole_whole _) ((hcondFirst t).mpr h0) (fun h => h1 ((hcondLast t).mp h)) (iblk V c 0 t) (iblk V c 1 t) (iblk V c 2 t)

/-- At any other point the accumulator is the update, by the point's two blocks, of the accumulator after the point
    before: the middle case and the last case leave the same thing there. -/
theorem acc_next (c : Dev nD) (t : Fin cfg1.N) (h0 : ¬t.val % 8 = 0) :
    (outsAt V c t.val t.isLt).2 = k1_pay2 (outsAt V c (t.val - 1) (Nat.lt_of_le_of_lt (Nat.sub_le _ _) t.isLt)).2 (iblk V c 0 t) (iblk V c 1 t) := by
  by_cases h1 : t.val % 8 = 7
  · rw [outsAt_last V c t h0 h1]
    unfold pairLast
    dsimp only
    exact soutLast_eq c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2
  · rw [outsAt_mid V c t h0 h1]
    unfold pairMid
    dsimp only
    exact soutMid_eq c (grid1.coords t) (ms0 t) (hs0 t) (ms1 t) (hs1 t) (ms2 t) (hs2 t) (ms3 t) (hs3 t) scM (Memref.isWhole_whole _) (fun h => h0 ((hcondFirst t).mp h)) (fun h => h1 ((hcondLast t).mp h)) (iblk V c 0 t) (iblk V c 1 t) (iblk V c 2 t) (outsAt V c (t.val - 1) (Nat.lt_of_le_of_lt (Nat.sub_le _ _) t.isLt)).2

/-- At the last of eight points the result window's buffer is that point's accumulator plus the bias row. -/
theorem out_last (c : Dev nD) (t : Fin cfg1.N) (h1 : t.val % 8 = 7) :
    (outsAt V c t.val t.isLt).1 = k1_pay3 (outsAt V c t.val t.isLt).2 (iblk V c 2 t) := by
  have h0 : ¬t.val % 8 = 0 := by omega
  rw [outsAt_last V c t h0 h1]
  unfold pairLast
  dsimp only
  exact (outLast_eq c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2).trans
    (congrArg (fun a => k1_pay3 a (iblk V c 2 t))
      (soutLast_eq c (grid1.coords t) (ms0 t) (hs0 t) (ms1 t) (hs1 t) (ms2 t) (hs2 t) (ms3 t) (hs3 t) scM (Memref.isWhole_whole _) (fun h => h0 ((hcondFirst t).mp h)) ((hcondLast t).mpr h1) (iblk V c 0 t) (iblk V c 1 t) (iblk V c 2 t) (outsAt V c (t.val - 1) (Nat.lt_of_le_of_lt (Nat.sub_le _ _) t.isLt)).2).symm)

end Cert.ReferenceIdeal.Reg1

end
-- ==== Proof.RVSum.lean ====
/-
  A sum of 4096 terms is the sum of its eight consecutive blocks of 512, in any additive commutative monoid.

  For a family f indexed by 0 .. 4095, the block sum of block k is the sum of f (512 k + r) over r = 0 .. 511, and the
  partial sum after n blocks is the sum of the first n block sums. The partial sum after no block is zero, each further
  block adds its block sum, and the partial sum after all eight blocks is the whole sum of f. No subtraction and no
  finiteness is used, so all of this holds over the extended reals.
-/
import Mathlib.Algebra.BigOperators.Fin
import Mathlib.Data.Fintype.BigOperators
import Mathlib.Logic.Equiv.Fin.Basic

open scoped BigOperators

namespace Cert.RVSum

variable {M : Type*} [AddCommMonoid M]

/-- The family read at a natural number: zero past the end. -/
def ext (f : Fin 4096 → M) (n : ℕ) : M := if h : n < 4096 then f ⟨n, h⟩ else 0

/-- The sum of block k: the terms 512 k .. 512 k + 511. -/
def blk (f : Fin 4096 → M) (k : ℕ) : M := ∑ r : Fin 512, ext f (512 * k + r.val)

/-- The sum of the first n blocks. -/
def part (f : Fin 4096 → M) (n : ℕ) : M := ∑ k ∈ Finset.range n, blk f k

/-- A block inside the range, with its terms named. -/
theorem blk_eq (f : Fin 4096 → M) (k : ℕ) (hk : k < 8) :
    blk f k = ∑ r : Fin 512, f ⟨512 * k + r.val, by have := r.isLt; omega⟩ := by
  unfold blk
  refine Finset.sum_congr rfl fun r _ => ?_
  have hr : 512 * k + r.val < 4096 := by have := r.isLt; omega
  unfold ext
  rw [dif_pos hr]

/-- No block yet: zero. -/
theorem part_zero (f : Fin 4096 → M) : part f 0 = 0 := by
  unfold part; rw [Finset.range_zero, Finset.sum_empty]

/-- One more block adds its sum. -/
theorem part_succ (f : Fin 4096 → M) (n : ℕ) : part f (n + 1) = part f n + blk f n := by
  unfold part; rw [Finset.sum_range_succ]

/-- The first block alone, starting from zero. -/
theorem part_one (f : Fin 4096 → M) : part f 1 = 0 + blk f 0 := by
  rw [part_succ, part_zero]

/-- The whole sum, block by block. -/
theorem sum_eq_blocks (f : Fin 4096 → M) :
    ∑ q : Fin 4096, f q = ∑ k : Fin 8, ∑ r : Fin 512, f ⟨512 * k.val + r.val, by have := r.isLt; have := k.isLt; omega⟩ := by
  have h := (Equiv.sum_comp (finProdFinEquiv (m := 8) (n := 512)) f).symm
  rw [Fintype.sum_prod_type] at h
  refine h.trans ?_
  refine Finset.sum_congr rfl fun k _ => Finset.sum_congr rfl fun r _ => ?_
  refine congrArg f (Fin.ext ?_)
  show r.val + 512 * k.val = 512 * k.val + r.val
  omega

/-- All eight blocks: the whole sum. -/
theorem part_eight (f : Fin 4096 → M) : part f 8 = ∑ q : Fin 4096, f q := by
  rw [sum_eq_blocks]
  unfold part
  rw [← Fin.sum_univ_eq_sum_range (fun k => blk f k) 8]
  refine Finset.sum_congr rfl fun k _ => ?_
  exact blk_eq f k.val k.isLt

end Cert.RVSum
-- ==== Proof.RValue1.lean ====
/-
  The reference's second stage leaves A S + b in its result array, for the adjacency A, the array S it reads as its
  second operand and the bias row b, whatever the buffers hold when the stage is entered.

  The stage walks 128 grid points in sixteen runs of eight. Point n belongs to run n / 8, which owns rows
  256 (n / 8) .. 256 (n / 8) + 255 of the result, and is at position n % 8 in its run. At point n the stage reads the
  256 by 512 block of A at block row n / 8 and block column n % 8, and the 512 by 256 block of S at block row n % 8.
  For row i and column j of the run's rows write f q = A (256 (n / 8) + i, q) · S (q, j) for q = 0 .. 4095. The product
  of the two blocks at (i, j) is the sum of f over the block 512 (n % 8) .. 512 (n % 8) + 511. The accumulator is reset
  to zero at position 0 and gains that block sum at every position, so after point n it holds at (i, j) the sum of the
  first n % 8 + 1 block sums of f. After position 7 that is the whole sum of f over q, and the stage stores it plus
  b (0, j) into the run's rows of the result. Row r of the result lies in the rows of run r / 256, written back at the
  run's last point 8 (r / 256) + 7; so the sixteen write-backs cover the result.
-/
import proofs.«177554_g2000404061440129_pallasbulk_871_2_alg».proof.Proof.RRegion1
import proofs.«177554_g2000404061440129_pallasbulk_871_2_alg».proof.Proof.RClosed
import proofs.«177554_g2000404061440129_pallasbulk_871_2_alg».proof.Proof.RPay
import proofs.«177554_g2000404061440129_pallasbulk_871_2_alg».proof.Proof.RVSum
import proofs.«177554_g2000404061440129_pallasbulk_871_2_alg».proof.Proof.Spec
import Idealize.ShloMosaic.Lib.Pipeline.Value

set_option maxRecDepth 16384

noncomputable section

open scoped BigOperators

namespace Cert.ReferenceIdeal.RValue1

open Idealize.ShloMosaic Idealize.ShloMosaic.ValueIdx Idealize.ShloMosaic.TcCoe
open Idealize.SL Idealize.SL.Sem
open Idealize.ShloMosaic.Pipeline (Dat Cfg Window)
open Cert.ReferenceIdeal Cert.ReferenceIdeal.Gen
open Cert.RVSum (part blk ext)

/-! ## The arithmetic, over arbitrary arrays -/

/-- The literal types of the arrays and blocks. -/
abbrev ArrA := S4096x4096.Idx → EReal
abbrev ArrS := S4096x256.Idx → EReal
abbrev ArrB := S1x256.Idx → EReal
abbrev BlkA := Vec Ideal S256x512 .f32
abbrev BlkS := Vec Ideal S512x256 .f32
abbrev BlkB := Vec Ideal S1x256 .f32
abbrev Acc := Vec Ideal S256x256 .f32

/-- The terms of entry (row, j) of the product A S: f q = A (row, q) · S (q, j). -/
def terms (A : ArrA) (S : ArrS) (row : Fin 4096) (j : Fin 256) : Fin 4096 → EReal :=
  fun q => A (ix2 row q) * S (ix2 q j)

/-- The stage's result as one array: A S plus the bias row on every row. -/
def AffRow (A : ArrA) (S : ArrS) (B : ArrB) : ArrS :=
  fun e => (∑ q : Fin 4096, A (ix2 (e 0) q) * S (ix2 q (e 1))) + B (ix2 0 (e 1))

theorem AffRow_apply (A : ArrA) (S : ArrS) (B : ArrB) (i : Fin 4096) (j : Fin 256) :
    AffRow A S B (ix2 i j) = (∑ q : Fin 4096, terms A S i j q) + B (ix2 0 j) := rfl

/-- With S the projected features x W and the bias row read off the bias b, the stage's result is the layer's. -/
theorem AffRow_eq_G (x : Cert.Spec.SX.Idx → EReal) (A : ArrA) (w : Cert.Spec.SW.Idx → EReal) (b : Cert.Spec.SB.Idx → EReal)
    (B : ArrB) (hB : ∀ j : Fin 256, B (ix2 0 j) = b (ix1 j)) :
    AffRow A (Cert.Spec.XW x w) B = Cert.Spec.G x A w b := by
  funext e
  obtain ⟨i, j, rfl⟩ : ∃ (i : Fin 4096) (j : Fin 256), e = ix2 i j := ⟨e 0, e 1, eq_ix2 e⟩
  rw [AffRow_apply, Cert.Spec.G_apply, hB j]
  rfl

/-- The row of the arrays that row i of point n's run is, and the column of A that column r of point n's block is. -/
def rowOf (n : ℕ) (i : Fin 256) : Fin 4096 := ⟨256 * (n / 8 % 16) + i.val, by have := i.isLt; omega⟩
def colOf (n : ℕ) (r : Fin 512) : Fin 4096 := ⟨512 * (n % 8) + r.val, by have := r.isLt; omega⟩

/-- A term of f read at a natural number inside the range. -/
theorem ext_at (f : Fin 4096 → EReal) (n : ℕ) (h : n < 4096) : ext f n = f ⟨n, h⟩ := by
  unfold Cert.RVSum.ext; rw [dif_pos h]

/-- One update of the accumulator at (i, j): if it held the sum of the first k block sums of f, and the products of the
    two blocks' entries along (i, ·) and (·, j) are the terms of block k of f, it now holds the sum of the first k + 1. -/
theorem acc_step (xs : Acc) (x0 : BlkA) (x1 : BlkS) (f : Fin 4096 → EReal) (k : ℕ) (i j : Fin 256)
    (hxs : xs (ix2 i j) = part f k)
    (hx : ∀ r : Fin 512, x0 (ix2 i r) * x1 (ix2 r j) = ext f (512 * k + r.val)) :
    k1_pay2 (F := Ideal) xs x0 x1 (ix2 i j) = part f (k + 1) := by
  rw [RPay.acc_apply, hxs, Cert.RVSum.part_succ]
  congr 1
  unfold Cert.RVSum.blk
  exact Finset.sum_congr rfl fun r _ => hx r

/-- The reset accumulator holds the sum of no block. -/
theorem acc_reset (f : Fin 4096 → EReal) (i j : Fin 256) : k1_pay1 (F := Ideal) (ix2 i j) = part f 0 :=
  (RPay.zero_apply i j).trans (Cert.RVSum.part_zero f).symm

/-- The store after the last update at (i, j): the whole sum of f plus the bias row's entry. -/
theorem fin_step (acc : Acc) (b : BlkB) (f : Fin 4096 → EReal) (i j : Fin 256) (hacc : acc (ix2 i j) = part f 8) :
    k1_pay3 (F := Ideal) acc b (ix2 i j) = (∑ q : Fin 4096, f q) + b (ix2 0 j) := by
  rw [RPay.fin_apply, hacc, Cert.RVSum.part_eight]

/-! ## The stage, at any entry contents -/

variable (V : (c : Dev nD) → (b : Ref sig .tc) → Buf (Elt Ideal) ((c : Thread nD τ).loc b))

/-- Where the windows sit at point t: the adjacency's block at block row t / 8, block column t % 8; the second
    operand's block at block row t % 8; the bias row's block at (0, 0); the result's block at block row t / 8. -/
theorem blocks_at : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- The adjacency's block at point t, entry (i, r): A at row 256 (t / 8) + i and column 512 (t % 8) + r. -/
theorem blkA_at (c : Dev nD) (t : Fin cfg1.N) (i : Fin 256) (r : Fin 512) :
    Reg1.iblk V c 0 t (ix2 i r) = V c main_v1 (ix2 (rowOf t.val i) (colOf t.val r)) := by
  obtain ⟨e00, e01, -, -, -, -, -, -⟩ := blocks_at t
  have ht : t.val < 128 := lt_of_lt_of_eq t.isLt N_1
  show V c main_v1 (((cfg1.win 0).blk t).view.emb (ix2 i r)) = V c main_v1 (ix2 (rowOf t.val i) (colOf t.val r))
  refine congrArg _ (funext fun a => Fin.ext ?_)
  match a with
  | ⟨0, _⟩ => show win1_0.index t (0 : Fin 2) * 256 + 1 * i.val = 256 * (t.val / 8 % 16) + i.val; omega
  | ⟨1, _⟩ => show win1_0.index t (1 : Fin 2) * 512 + 1 * r.val = 512 * (t.val % 8) + r.val; omega

/-- The second operand's block at point t, entry (r, j): S at row 512 (t % 8) + r and column j. -/
theorem blkS_at (c : Dev nD) (t : Fin cfg1.N) (r : Fin 512) (j : Fin 256) :
    Reg1.iblk V c 1 t (ix2 r j) = V c main_v5 (ix2 (colOf t.val r) j) := by
  obtain ⟨-, -, e10, e11, -, -, -, -⟩ := blocks_at t
  show V c main_v5 (((cfg1.win 1).blk t).view.emb (ix2 r j)) = V c main_v5 (ix2 (colOf t.val r) j)
  refine congrArg _ (funext fun a => Fin.ext ?_)
  match a with
  | ⟨0, _⟩ => show win1_1.index t (0 : Fin 2) * 512 + 1 * r.val = 512 * (t.val % 8) + r.val; omega
  | ⟨1, _⟩ => show win1_1.index t (1 : Fin 2) * 256 + 1 * j.val = j.val; omega

/-- The bias row's block at any point is the bias row. -/
theorem blkB_at (c : Dev nD) (t : Fin cfg1.N) (j : Fin 256) :
    Reg1.iblk V c 2 t (ix2 0 j) = V c main_v4 (ix2 0 j) := by
  obtain ⟨-, -, -, -, e20, e21, -, -⟩ := blocks_at t
  show V c main_v4 (((cfg1.win 2).blk t).view.emb (ix2 0 j)) = V c main_v4 (ix2 0 j)
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * j.val = j.val; omega

/-- The products of the two blocks' entries at point t are the terms of block t % 8 of f. -/
theorem prod_at (c : Dev nD) (t : Fin cfg1.N) (i j : Fin 256) (r : Fin 512) (x0 : BlkA) (x1 : BlkS)
    (h0 : x0 = Reg1.iblk V c 0 t) (h1 : x1 = Reg1.iblk V c 1 t) :
    x0 (ix2 i r) * x1 (ix2 r j)
      = ext (terms (V c main_v1) (V c main_v5) (rowOf t.val i) j) (512 * (t.val % 8) + r.val) := by
  have hr : 512 * (t.val % 8) + r.val < 4096 := by have := r.isLt; omega
  rw [ext_at _ _ hr, h0, h1, blkA_at, blkS_at]
  rfl

/-- THE ACCUMULATOR after point n, at (i, j): the sum of the first n % 8 + 1 block sums of f. -/
theorem acc_eq (c : Dev nD) : ∀ (n : ℕ) (hn : n < cfg1.N) (i j : Fin 256),
    (Reg1.outsAt V c n hn).2 (ix2 i j)
      = part (terms (V c main_v1) (V c main_v5) (rowOf n i) j) (n % 8 + 1) := by
  intro n
  induction n using Nat.strong_induction_on with
  | _ n ih =>
    intro hn i j
    by_cases h0 : n % 8 = 0
    · have key : (Reg1.outsAt V c n hn).2
          = k1_pay2 (k1_pay1 (F := Ideal)) (Reg1.iblk V c 0 ⟨n, hn⟩) (Reg1.iblk V c 1 ⟨n, hn⟩) :=
        Reg1.acc_first V c ⟨n, hn⟩ h0
      rw [key, h0]
      refine acc_step _ _ _ _ 0 i j (acc_reset _ i j) fun r => ?_
      have := prod_at V c ⟨n, hn⟩ i j r _ _ rfl rfl
      rw [show (⟨n, hn⟩ : Fin cfg1.N).val = n from rfl, h0] at this
      exact this
    · have hn1 : n - 1 < cfg1.N := Nat.lt_of_le_of_lt (Nat.sub_le _ _) hn
      have key : (Reg1.outsAt V c n hn).2
          = k1_pay2 (Reg1.outsAt V c (n - 1) hn1).2 (Reg1.iblk V c 0 ⟨n, hn⟩) (Reg1.iblk V c 1 ⟨n, hn⟩) :=
        Reg1.acc_next V c ⟨n, hn⟩ h0
      have e1 : n % 8 + 1 = ((n - 1) % 8 + 1) + 1 := by omega
      have e2 : (n - 1) % 8 + 1 = n % 8 := by omega
      have erow : rowOf (n - 1) i = rowOf n i := Fin.ext (by show 256 * ((n - 1) / 8 % 16) + i.val = 256 * (n / 8 % 16) + i.val; omega)
      rw [key, e1]
      refine acc_step _ _ _ _ _ i j ?_ fun r => ?_
      · rw [ih (n - 1) (by omega) hn1 i j, erow]
      · have := prod_at V c ⟨n, hn⟩ i j r _ _ rfl rfl
        rw [show (⟨n, hn⟩ : Fin cfg1.N).val = n from rfl] at this
        rw [e2]
        exact this

/-- What a run's last point writes back is the run's rows of A S + b. -/
theorem flushed_eq (c : Dev nD) (t : Fin cfg1.N) (h7 : t.val % 8 = 7) :
    (Reg1.dat V c).flushed 3 t = ((cfg1.win 3).blk t).view.read (Elt Ideal)
      (AffRow (V c main_v1) (V c main_v5) (V c main_v4)) := by
  show (cfg1.win 3).cut (grid1.coords t) ((Reg1.dat V c).after 3 t) = _
  rw [Reg1.after3, Reg1.out_last V c t h7]
  obtain ⟨-, -, -, -, -, -, e30, e31⟩ := blocks_at t
  have ht : t.val < 128 := lt_of_lt_of_eq t.isLt N_1
  funext y
  obtain ⟨p, q, rfl⟩ : ∃ (p : Fin 256) (q : Fin 256), y = ix2 p q := ⟨y 0, y 1, eq_ix2 y⟩
  show k1_pay3 (Reg1.outsAt V c t.val t.isLt).2 (Reg1.iblk V c 2 t) (ix2 p q)
    = AffRow (V c main_v1) (V c main_v5) (V c main_v4) (((cfg1.win 3).blk t).view.emb (ix2 p q))
  have hrow : ((cfg1.win 3).blk t).view.emb (ix2 p q) = ix2 (rowOf t.val p) q := by
    funext a; apply Fin.ext
    match a with
    | ⟨0, _⟩ => show win1_3.index t (0 : Fin 2) * 256 + 1 * p.val = 256 * (t.val / 8 % 16) + p.val; omega
    | ⟨1, _⟩ => show win1_3.index t (1 : Fin 2) * 256 + 1 * q.val = q.val; omega
  rw [hrow, AffRow_apply, ← blkB_at V c t q]
  refine fin_step _ _ _ p q ?_
  rw [acc_eq V c t.val t.isLt p q, h7]

/-- An index of the result array lies in point t's block exactly when each coordinate lies in the block's range. -/
theorem mem_blk (t : Fin cfg1.N) (i : S4096x256.Idx) :
    i ∈ ((cfg1.win 3).blk t).view.set ↔ ∀ a : Fin 2, win1_3.index t a * S256x256.size a ≤ (i a).val
      ∧ (i a).val < win1_3.index t a * S256x256.size a + S256x256.size a := by
  show i ∈ ((View.whole main_v6).slice (win1_3.rect t)).set ↔ _
  rw [View.set_slice_whole, Rect.mem_set_unit]
  exact Iff.rfl

/-- Every index of the result array lies in the block of a point that writes back: row r in that of 8 (r / 256) + 7. -/
theorem covered (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have htN : 8 * ((i 0).val / 256) + 7 < cfg1.N :=
    lt_of_lt_of_eq (by omega : 8 * ((i 0).val / 256) + 7 < 128) N_1.symm
  obtain ⟨-, -, -, -, -, -, e30, e31⟩ := blocks_at ⟨8 * ((i 0).val / 256) + 7, htN⟩
  have e30' : win1_3.index ⟨8 * ((i 0).val / 256) + 7, htN⟩ (0 : Fin 2) = (8 * ((i 0).val / 256) + 7) / 8 := e30
  refine ⟨⟨8 * ((i 0).val / 256) + 7, htN⟩, (flush1_3 _).mpr (by show (8 * ((i 0).val / 256) + 7) % 8 = 7; omega), ?_⟩
  rw [mem_blk]
  intro a
  match a with
  | ⟨0, _⟩ =>
    show win1_3.index ⟨8 * ((i 0).val / 256) + 7, htN⟩ (0 : Fin 2) * 256 ≤ (i 0).val
      ∧ (i 0).val < win1_3.index ⟨8 * ((i 0).val / 256) + 7, htN⟩ (0 : Fin 2) * 256 + 256
    omega
  | ⟨1, _⟩ =>
    show win1_3.index ⟨8 * ((i 0).val / 256) + 7, htN⟩ (1 : Fin 2) * 256 ≤ (i 1).val
      ∧ (i 1).val < win1_3.index ⟨8 * ((i 0).val / 256) + 7, htN⟩ (1 : Fin 2) * 256 + 256
    omega

/-- The stage's result array when the stage is over: A S + b of the arrays as the stage finds them. -/
theorem final (c : Dev nD) :
    (Reg1.dat V c).arrAt 3 cfg1.N = AffRow (V c main_v1) (V c main_v5) (V c main_v4) :=
  (Reg1.dat V c).arrAt_eq_of_cover 3 _ (fun t hf => flushed_eq V c t ((flush1_3 t).mp hf)) covered

end Cert.ReferenceIdeal.RValue1

end
-- ==== Proof.RValue.lean ====
/-
  The run of the reference with its result named.

  Every weakly fair run of the reference ends with each buffer at the contents its last stage leaves. The second stage
  leaves in the result A' S + b' for the adjacency A', the array S and the bias row b' it finds when it is entered. S is
  what the first stage leaves: x' W' for the features x' and the weights W' that stage finds. The first stage writes
  neither A' nor b', and the pads by nothing and the reshape before it make x', A', W' the arguments x, A, W as launched
  and b' (0, j) the bias b at j. So entry (i, j) of the result is the sum over q of A (i, q) · (x W) (q, j), plus b j:
  the array `G` of the four arguments. No item of the program writes an argument, so the arguments end as launched.
-/
import proofs.«177554_g2000404061440129_pallasbulk_871_2_alg».proof.ReferenceIdeal
import proofs.«177554_g2000404061440129_pallasbulk_871_2_alg».proof.Proof.Gen.ReferenceIdeal
import proofs.«177554_g2000404061440129_pallasbulk_871_2_alg».proof.Proof.Spec
import proofs.«177554_g2000404061440129_pallasbulk_871_2_alg».proof.Proof.RRun
import proofs.«177554_g2000404061440129_pallasbulk_871_2_alg».proof.Proof.RVHost
import proofs.«177554_g2000404061440129_pallasbulk_871_2_alg».proof.Proof.RValue0
import proofs.«177554_g2000404061440129_pallasbulk_871_2_alg».proof.Proof.RValue1

set_option maxRecDepth 16384

noncomputable section

open scoped BigOperators

namespace Cert.ReferenceIdeal.RValue

open Idealize.ShloMosaic Idealize.SL.Sem
open Idealize.ShloMosaic.ValueIdx Idealize.ShloMosaic.TcCoe
open Cert.ReferenceIdeal Cert.ReferenceIdeal.Gen Cert.ReferenceIdeal.RRun

/-- What the second stage finds in its second operand: x W of the features and the weights as launched. -/
theorem projected (m : (ℓ : Loc nD τ sig) → Buf (Elt Ideal) ℓ) (ρ : Dev nD → PrngReg) (c : Dev nD) :
    (V10 m ρ c main_v5 : S4096x256.Idx → EReal)
      = Cert.Spec.XW (m ((c : Thread nD τ).loc main_arg0)) (m ((c : Thread nD τ).loc main_arg2)) := by
  have h : (V10 m ρ c main_v5 : S4096x256.Idx → EReal) = (Reg0.dat (V9 m ρ) c).arrAt 2 cfg0.N := W10_arr m ρ c 2
  rw [h, RValue0.final]
  have hx : (V9 m ρ c main_v0 : S4096x256.Idx → EReal) = m ((c : Thread nD τ).loc main_arg0) :=
    RVHost.features_in m ρ c
  have hw : (V9 m ρ c main_v2 : S256x256.Idx → EReal) = m ((c : Thread nD τ).loc main_arg2) :=
    RVHost.weights_in m ρ c
  rw [hx, hw]

/-- The result array after the second stage: `G` of the four arguments as launched. -/
theorem result_eq (m : (ℓ : Loc nD τ sig) → Buf (Elt Ideal) ℓ) (ρ : Dev nD → PrngReg) (c : Dev nD) :
    (W11 m ρ c (Proc.devRef .tc main_v6) : S4096x256.Idx → EReal)
      = Cert.Spec.G (m ((c : Thread nD τ).loc main_arg0)) (m ((c : Thread nD τ).loc main_arg1))
          (m ((c : Thread nD τ).loc main_arg2)) (m ((c : Thread nD τ).loc main_arg3)) := by
  have h : (W11 m ρ c (Proc.devRef .tc main_v6) : S4096x256.Idx → EReal) = (Reg1.dat (V10 m ρ) c).arrAt 3 cfg1.N :=
    W11_arr m ρ c 3
  rw [h, RValue1.final]
  have hA : (V10 m ρ c main_v1 : S4096x4096.Idx → EReal) = m ((c : Thread nD τ).loc main_arg1) :=
    (W10_of_ne m ρ c main_v1 (by decide)).trans (RVHost.adjacency_in m ρ c)
  have hb : ∀ j : Fin 256, (V10 m ρ c main_v4 : S1x256.Idx → EReal) (ix2 0 j)
      = (m ((c : Thread nD τ).loc main_arg3) : S256.Idx → EReal) (ix1 j) := fun j =>
    (congrFun (W10_of_ne m ρ c main_v4 (by decide)) (ix2 0 j)).trans (RVHost.bias_row_in m ρ c j)
  rw [hA, projected m ρ c]
  exact RValue1.AffRow_eq_G _ _ _ _ _ hb

theorem run_value (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
      r.2.mem ((c.tc : Thread Cert.ReferenceIdeal.nD Cert.ReferenceIdeal.τ).loc Cert.ReferenceIdeal.main_v6)
        = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun r h c =>
    ⟨(h c _ (mem_uc main_v6 (by decide))).trans (result_eq m ρ c),
     (h c _ (mem_uc main_arg0 (by decide))).trans (W11_main_arg0 m ρ c),
     (h c _ (mem_uc main_arg1 (by decide))).trans (W11_main_arg1 m ρ c),
     (h c _ (mem_uc main_arg2 (by decide))).trans (W11_main_arg2 m ρ c),
     (h c _ (mem_uc main_arg3 (by decide))).trans (W11_main_arg3 m ρ c)⟩)
    (RRun.run_all m ρ)

end Cert.ReferenceIdeal.RValue

end
-- ==== Proof.lean ====
/-
  The claim: the two-stage kernel and the reference layer compute the same array.

  Both programs compute A (x W) + b for features x, adjacency A, weights W and bias b (Proof/Spec.lean's `G`). The
  kernel forms x W in row blocks of 512 and then, for each block of 256 rows of A, the product of that whole row stripe
  with all of x W, plus the bias. The reference forms x W in row blocks of 256 and, for each block of 256 rows of A,
  adds up the products of eight column blocks of 512 of A with the matching row blocks of x W, starting from zero, and
  adds the bias after the last. Over the extended reals a change of float format is the identity, so the kernel's
  roundings to a shorter format drop out, and a sum of 4096 terms is the sum of its eight consecutive blocks of 512
  (addition on the extended reals is associative and commutative), so both arrays are `G` of the arguments entry by
  entry. No precondition is used.
-/
import proofs.«177554_g2000404061440129_pallasbulk_871_2_alg».proof.Defs
import proofs.«177554_g2000404061440129_pallasbulk_871_2_alg».proof.Proof.Gen.Kernel
import proofs.«177554_g2000404061440129_pallasbulk_871_2_alg».proof.Proof.Gen.Kernel.Skeleton
import proofs.«177554_g2000404061440129_pallasbulk_871_2_alg».proof.Proof.Gen.Kernel.Launch
import proofs.«177554_g2000404061440129_pallasbulk_871_2_alg».proof.Proof.Gen.Kernel.Points
import proofs.«177554_g2000404061440129_pallasbulk_871_2_alg».proof.Proof.Gen.Kernel.Frame
import proofs.«177554_g2000404061440129_pallasbulk_871_2_alg».proof.Proof.Gen.KernelIdeal
import proofs.«177554_g2000404061440129_pallasbulk_871_2_alg».proof.Proof.Gen.KernelIdeal.Skeleton
import proofs.«177554_g2000404061440129_pallasbulk_871_2_alg».proof.Proof.Gen.KernelIdeal.Launch
import proofs.«177554_g2000404061440129_pallasbulk_871_2_alg».proof.Proof.Gen.KernelIdeal.Points
import proofs.«177554_g2000404061440129_pallasbulk_871_2_alg».proof.Proof.Gen.KernelIdeal.Frame
import proofs.«177554_g2000404061440129_pallasbulk_871_2_alg».proof.Proof.Gen.ReferenceIdeal
import proofs.«177554_g2000404061440129_pallasbulk_871_2_alg».proof.Proof.Gen.ReferenceIdeal.Skeleton
import proofs.«177554_g2000404061440129_pallasbulk_871_2_alg».proof.Proof.Gen.ReferenceIdeal.Launch
import proofs.«177554_g2000404061440129_pallasbulk_871_2_alg».proof.Proof.Gen.ReferenceIdeal.Regions
import proofs.«177554_g2000404061440129_pallasbulk_871_2_alg».proof.Proof.Gen.ReferenceIdeal.Points
import proofs.«177554_g2000404061440129_pallasbulk_871_2_alg».proof.Proof.Gen.Pre_finite_inputs
import proofs.«177554_g2000404061440129_pallasbulk_871_2_alg».proof.Proof.Spec
import proofs.«177554_g2000404061440129_pallasbulk_871_2_alg».proof.Proof.KValue
import proofs.«177554_g2000404061440129_pallasbulk_871_2_alg».proof.Proof.RValue
import Idealize.ShloMosaic.Adequacy
import Idealize.ShloMosaic.Init

noncomputable section

namespace Cert.Proof

open Idealize.ShloMosaic Idealize.SL.Sem

/-- The kernel as printed runs and leaves its arguments as launched. -/
theorem frame_k : Cert.frame_Kernel :=
  fun m ρ _ => Cert.Kernel.Gen.frame m ρ

/-- So does the kernel read over the extended reals. -/
theorem frame_ki : Cert.frame_KernelIdeal :=
  fun m ρ _ => Cert.KernelIdeal.Gen.frame m ρ

/-- The reference's run with its result named, the result forgotten. -/
theorem frame_ri : Cert.frame_ReferenceIdeal :=
  fun m ρ _ => (θ_run Cert.ReferenceIdeal.defs _ _).mono (fun _ h c => (h c).2)
    (Cert.ReferenceIdeal.RValue.run_value m ρ)

/-- Both runs end with the result array at `G` of their arguments, and the arguments agree. -/
theorem algebraic : Cert.algebraic_KernelIdeal_ReferenceIdeal := by
  intro m ρ m' ρ' _ hagree
  refine ⟨_, Cert.KernelIdeal.KValue.run_value m ρ, ?_⟩
  refine (θ_run Cert.ReferenceIdeal.defs _ _).mono (fun _ h c => ⟨(h c).1.trans ?_, (h c).2⟩)
    (Cert.ReferenceIdeal.RValue.run_value m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
